-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  main_v3
-- ==== Kernel.lean ====
abbrev S16384x128 : Shape := ⟨2, ![16384, 128]⟩
abbrev S2048x128 : Shape := ⟨2, ![2048, 128]⟩
abbrev S2048 : Shape := ⟨1, ![2048]⟩
abbrev S2048x1 : Shape := ⟨2, ![2048, 1]⟩
abbrev S1x1 : Shape := ⟨2, ![1, 1]⟩
abbrev S1024x128 : Shape := ⟨2, ![1024, 128]⟩
abbrev S128x1024 : Shape := ⟨2, ![128, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 8
  | .vmem => 10
  | .smem => 0
  | _ => 0

abbrev bufTy : (tb : Table) → Fin (tcTables nBuf tb) → BufTy
  | .hbm, ⟨0, _⟩ => ⟨S16384x128, .f32⟩
  | .hbm, ⟨1, _⟩ => ⟨S16384x128, .bf16⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1x1, .f32⟩
  | .local _ .vmem, ⟨9, _⟩ => ⟨S1x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 16], ![false, false]⟩

def k1_cond2 (i : grid1.Coords) : BitVec 1 :=
  let arg0 : BitVec 32 := BitVec.ofNat 32 (i 0).val
  let c15_i32 : BitVec 32 := 15#32
  let v20 : BitVec 1 := Scalar.cmpi .eq arg0 c15_i32
  let arg1 : BitVec 32 := BitVec.ofNat 32 (i 1).val
  let c15_i32_11 : BitVec 32 := 15#32
  let v21 : BitVec 1 := Scalar.cmpi .eq arg1 c15_i32_11
  let v22 : BitVec 1 := Scalar.andi v20 v21
  let v23 : BitVec 32 := Scalar.extui v22
  let c0_i32_12 : BitVec 32 := 0#32
  let v24 : BitVec 1 := Scalar.cmpi .ne v23 c0_i32_12
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

class Facts₀ : Prop where
  inb_S2048x128_S2048x128_0_0 : ∀ a, (![0, 0] : Fin 2 → Nat) a + S2048x128.size a ≤ S2048x128.size a
  h_S2048x128 : 0 < S2048x128.numel
  reduces_S2048x128_S2048 : S2048x128.Reduces [1] S2048
  shapeCasts_S2048_S2048x1 : S2048.ShapeCasts S2048x1
  broadcasts_S2048x1_S2048x128 : S2048x1.Broadcasts S2048x128
  bitsLt_bf16_f32 : FTy.bits .bf16 < FTy.bits .f32
  packedbf16_S2048x128_S2048x128_0_0 : (Rect.unit (s := S2048x128) ![0, 0] S2048x128.size inb_S2048x128_S2048x128_0_0).PackedRows (EltTy.packing .bf16)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .bf16 = 32 ∨ (Rect.block (s := S16384x128) S2048x128.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S16384x128.size a
  hwx1_0 : ∀ i : grid1.Coords, EltTy.bits .bf16 = 32 ∨ (Rect.block (s := S16384x128) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S16384x128.size a
  hwx1_1 : ∀ i : grid1.Coords, EltTy.bits .bf16 = 32 ∨ (Rect.block (s := S16384x128) S1024x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16384x128 : Shape := ⟨2, ![16384, 128]⟩
abbrev S_ : Shape := ⟨0, ![]⟩
abbrev S16384 : Shape := ⟨1, ![16384]⟩
abbrev S16384x1 : Shape := ⟨2, ![16384, 1]⟩
abbrev S128x16384 : Shape := ⟨2, ![128, 16384]⟩
abbrev S16384x16384 : Shape := ⟨2, ![16384, 16384]⟩

abbrev nBuf : Space → Nat
  | .hbm => 19
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S_, .f32⟩
  | .hbm, ⟨3, _⟩ => ⟨S16384, .f32⟩
  | .hbm, ⟨4, _⟩ => ⟨S16384x1, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x128, .f32⟩
  | .hbm, ⟨10, _⟩ => ⟨S16384x128, .f32⟩
  | .hbm, ⟨11, _⟩ => ⟨S128x16384, .f32⟩
  | .hbm, ⟨12, _⟩ => ⟨S16384x16384, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  transposes_S16384x128_S128x16384_1_0 : S16384x128.Transposes [1, 0] S128x16384
  reducesTo_S16384x16384_S_d0_1 : S16384x16384.ReducesTo [0, 1] S_
  dot_S16384x128_S128x16384_S16384x16384_1_0_0_1_n_n_wf : DotDims.WF S16384x128 S128x16384 S16384x16384 [1] [0] [0] [1] [] []

variable [Facts₀]

def dot_S16384x128_S128x16384_S16384x16384_1_0_0_1_n_n : DotDims S16384x128 S128x16384 S16384x16384 where
  lhsContracting := [1]
  rhsContracting := [0]
  lhsNonContracting := [0]
  rhsNonContracting := [1]
  lhsBatch := []
  rhsBatch := []
  wf := dot_S16384x128_S128x16384_S16384x16384_1_0_0_1_n_n_wf

class Facts : Prop extends Facts₀ where

variable [Facts]
-- ==== Proof.BitsRegion0.lean ====
/-
  Region 0 of the kernel program: the row-normalising kernel on its grid of 8 points.
  Each point reads one block of 2048 rows of the argument array and stores, into the
  output window's buffer, every row divided by the larger of its Euclidean norm and the
  clamp constant.  Stated here, at any entry contents `V` of the core's buffers and at
  any float instance: the block each window holds at a point, what the body leaves in
  the output buffer as ONE function of the input block, the body's triple, the proof
  data of the pipeline (inputs keep their block, the output holds the normalised block,
  nothing else is kept between points) and the body obligation at every point.
-/
import proofs.«131188_j41266045780102_1_alg».proof.Proof.Gen.Kernel.Launch
import proofs.«131188_j41266045780102_1_alg».proof.Proof.Gen.Kernel.Skeleton
import proofs.«131188_j41266045780102_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds its block at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body loads and stores through: the whole 2048 × 128 buffer. -/
abbrev r0_0 : Rect S2048x128 := Rect.unit (s := S2048x128) ![0, 0] S2048x128.size inb_S2048x128_S2048x128_0_0

/-- The output buffer after the body, from the input block: the one whole-buffer store of the
    normalised rows. -/
def out0_1 (x0 : Vec F S2048x128 .f32) : Vec F S2048x128 .bf16 :=
  View.canon [⟨r0_0, k0_pay1 (View.ld x0 r0_0)⟩]

/-- The store covers the buffer. -/
theorem cover0_1 (p0 : Vec F S2048x128 .bf16) (y : S2048x128.Idx) :
    ∃ pc ∈ ([⟨r0_0, p0⟩] : List (View.Piece (Elt F) S2048x128 .bf16)), y ∈ pc.1.set :=
  View.cover_of_tiled [⟨r0_0, p0⟩] S2048x128.size (by rfl) y

set_option maxHeartbeats 1000000 in
/-- The body's triple: from the input buffer at `x0` and the output buffer at anything, to the
    input buffer unchanged and the output buffer at `out0_1 x0`. -/
theorem sound_kernel0 (c : Dev nD) (E : Set ℕ) (i : grid0.Coords) (arg1 : Memref sig .tc .vmem S2048x128 .f32) (harg1 : arg1.IsWhole) (arg2 : Memref sig .tc .vmem S2048x128 .bf16) (harg2 : arg2.IsWhole)
    (x0 : Vec F S2048x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1Data.lean ====
/-
  Region 1 of the kernel program: the kernel that sums every entry of the product of the
  normalised array with its own transpose, tile by tile, on a 16 × 16 grid.  Point (i, j) reads
  row block i and row block j (1024 rows each) of the SAME array, multiplies the first by the
  transpose of the second, sums the tile, and adds the sum to a one-cell scratch that the first
  point resets to zero; the last point copies the scratch to the one-cell output.
  This module fixes the proof data: the blocks, the running sum after the first n points, the
  invariant that carries the scratch cell between points, and the data record.
-/
import proofs.«131188_j41266045780102_1_alg».proof.Proof.Gen.Kernel.Launch
import proofs.«131188_j41266045780102_1_alg».proof.Proof.Gen.Kernel.Skeleton
import proofs.«131188_j41266045780102_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running sum the scratch cell holds after the first `n` grid points: zero, then each
    point's tile sum added in grid order. -/
def accUpTo (c : Dev nD) : ℕ → Vec F S1x1 .f32
  | 0 => k1_pay1
  | n + 1 => if h : n < cfg1.N then k1_pay2 (iblk1 V c 0 ⟨n, h⟩) (iblk1 V c 1 ⟨n, h⟩) (accUpTo c n) else accUpTo c n

/-- The scoped buffers of the core that region 1 neither stages nor uses: region 0's staging buffers. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The invariant before point `t` (after point `t - 1`): the scratch cell holds the running sum of
    the points below `t` (anything before the first point, which resets it); the unused scoped
    buffers and the generator register ride along. -/
def Phi1 (c : Dev nD) (t : Fin (cfg1.N + 1)) : sProp 𝕄 :=
  iprop((∃ s : Vec F S1x1 .f32, ⌜t.val ≠ 0 → s = accUpTo V c t.val⌝ ∗ owns (c : Thread nD τ) (Memref.whole cc1_scratch0) fullShare s)
    ∗ rest1 (F := F) c ∗ ∃ r, prngReg c r)

/-- The proof data of pipeline 1 on core `c`: the arrays as the region finds them; both input
    windows keep their blocks; the output window's buffer holds the running sum where the body
    stores it (the last point); the two input windows, which read one array, hold complementary
    halves of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accUpTo V c (t.val + 1)
  Φ t := Phi1 V c t
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accUpTo V c (t.val + 1) := by dsimp only [dat1]
theorem Phi1_eq (c : Dev nD) (t : Fin (cfg1.N + 1)) : (dat1 V c).Φ t = Phi1 V c t := by dsimp only [dat1]
theorem owed1 (c : Dev nD) (t : Fin (cfg1.N + 1)) : (dat1 V c).owed t = 0 := rfl

end Cert.Kernel.Hand

end
-- ==== Proof.BitsRegion1.lean ====
/-
  Region 1's body obligation: at every grid point the summing kernel, called on its windows'
  current buffers, takes the invariant before the point to the invariant after it.  Three
  control cases: the first point resets the scratch cell and adds its tile sum; a middle point
  adds its tile sum; the last point adds its tile sum and copies the cell to the output buffer.
-/
import proofs.«131188_j41266045780102_1_alg».proof.Proof.BitsRegion1Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The kernel body on any whole buffers, one triple per control case -/

/-- The condition under which the body resets the scratch cell, as a function of the grid
    coordinates: both coordinates are zero. -/
abbrev cond1_0 (i : grid1.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- The zero offsets of a rank-2 rectangle, as a constant function. -/
theorem hz2 : (![0, 0] : Fin 2 → Nat) = fun _ => 0 := funext fun a => by fin_cases a <;> rfl

/-- A store through the whole one-cell rectangle, made last, covers the one-cell buffer whatever was
    stored before it. -/
theorem cover1x1 (p0 : Vec F S1x1 .f32) (L : List (View.Piece (Elt F) S1x1 .f32)) (y : S1x1.Idx) :
    ∃ pc ∈ ((⟨Rect.unit (s := S1x1) ![0, 0] S1x1.size inb_S1x1_S1x1_0_0, p0⟩ : View.Piece (Elt F) S1x1 .f32) :: L), y ∈ pc.1.set :=
  ⟨_, List.mem_cons_self, View.mem_set_unit_zero hz2 inb_S1x1_S1x1_0_0 y⟩

set_option maxHeartbeats 1000000 in
/-- A MIDDLE point (neither condition holds): from the two input buffers at blocks `a`, `b` and the
    scratch cell at `s`, the body leaves the inputs as they were and the scratch cell at `s` plus the
    tile sum of `a` against `b`.  The output buffer is not touched, so it is not mentioned. -/
theorem sound_kernel1_mid (c : Dev nD) (E : Set ℕ) (i : grid1.Coords)
    (arg2 : Memref sig .tc .vmem S1024x128 .bf16) (harg2 : arg2.IsWhole)
    (arg3 : Memref sig .tc .vmem S1024x128 .bf16) (harg3 : arg3.IsWhole)
    (arg4 : Memref sig .tc .vmem S1x1 .f32) (harg4 : arg4.IsWhole)
    (arg5 : Memref sig .tc .vmem S1x1 .f32) (harg5 : arg5.IsWhole)
    (hc0 : ¬cond1_0 i) (hc1 : ¬k1_cond2 i = 1#1)
    (a b : Vec F S1024x128 .bf16) (s : Vec F S1x1 .f32) (K : PUnit → sProp 𝕄) :
    iprop(owns (c : Thread nD τ) arg2 fullShare a ∗ owns (c : Thread nD τ) arg3 fullShare b ∗ owns (c : Thread nD τ) arg5 fullShare s
        ∗ (iprop(owns (c : Thread nD τ) arg2 fullShare a ∗ owns (c : Thread nD τ) arg3 fullShare b
            ∗ owns (c : Thread nD τ) arg5 fullShare (k1_pay2 a b s)) -∗ K ⟨⟩))
      ⊢ wp frame (wpE (defs₀ (F := F)) Variants.none c none) E (cc1__matmul_sum_kernel i arg2 harg2 arg3 harg3 arg4 harg4 arg5 harg5) K := by
  simp only [cc1__matmul_sum_kernel_eq_skeleton]; unfold cc1__matmul_sum_kernel_skel
  unfold owns
  iintro ⟨⟨%f2, %hf2, H2⟩, ⟨%f3, %hf3, H3⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  -- one whole-cell store: the cell reads its payload, and each whole-buffer load reads the contents
  rw [View.read_writes_eq_canon _ _ _ (cover1x1 _ _), View.canon_unit_zero hz2]
  simp only [View.readAt_eq_ld, View.ld_unit_zero (S := S1024x128) hz2, View.ld_unit_zero (S := S1x1) hz2]

set_option maxHeartbeats 1000000 in
/-- The FIRST point (the reset's condition holds, the copy-out's does not): whatever the scratch cell
    held, the body resets it to zero and then adds the tile sum, so it ends at zero plus the tile sum
    of `a` against `b`. -/
theorem sound_kernel1_first (c : Dev nD) (E : Set ℕ) (i : grid1.Coords)
    (arg2 : Memref sig .tc .vmem S1024x128 .bf16) (harg2 : arg2.IsWhole)
    (arg3 : Memref sig .tc .vmem S1024x128 .bf16) (harg3 : arg3.IsWhole)
    (arg4 : Memref sig .tc .vmem S1x1 .f32) (harg4 : arg4.IsWhole)
    (arg5 : Memref sig .tc .vmem S1x1 .f32) (harg5 : arg5.IsWhole)
    (hc0 : cond1_0 i) (hc1 : ¬k1_cond2 i = 1#1)
    (a b : Vec F S1024x128 .bf16) (K : PUnit → sProp 𝕄) :
    iprop(owns (c : Thread nD τ) arg2 fullShare a ∗ owns (c : Thread nD τ) arg3 fullShare b ∗ (∃ s, owns (c : Thread nD τ) arg5 fullShare s)
        ∗ (iprop(owns (c : Thread nD τ) arg2 fullShare a ∗ owns (c : Thread nD τ) arg3 fullShare b
            ∗ owns (c : Thread nD τ) arg5 fullShare (k1_pay2 a b k1_pay1)) -∗ K ⟨⟩))
      ⊢ wp frame (wpE (defs₀ (F := F)) Variants.none c none) E (cc1__matmul_sum_kernel i arg2 harg2 arg3 harg3 arg4 harg4 arg5 harg5) K := by
  simp only [cc1__matmul_sum_kernel_eq_skeleton]; unfold cc1__matmul_sum_kernel_skel
  unfold owns
  iintro ⟨⟨%f2, %hf2, H2⟩, ⟨%f3, %hf3, H3⟩, ⟨%s, %f5, -, H5⟩, Hk⟩
  subst hf2; subst hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  -- two whole-cell stores, the zero first: the cell reads the later payload, whose scratch operand
  -- is the zero read back through the earlier store
  sl_unfold_words
  rw [View.read_writes_eq_canon _ _ _ (cover1x1 _ _), View.canon_cons_unit_zero (S := S1x1) hz2, View.readCov_unit_zero (S := S1x1) _ hz2]
  simp only [View.readAt_eq_ld, View.ld_unit_zero (S := S1024x128) hz2, View.ld_unit_zero (S := S1x1) hz2]

set_option maxHeartbeats 1000000 in
/-- The LAST point (the copy-out's condition holds, the reset's does not): the scratch cell goes
    from `s` to `s` plus the tile sum, and the output buffer, whatever it held, ends at the same value,
    read back from the scratch cell after the store. -/
theorem sound_kernel1_last (c : Dev nD) (E : Set ℕ) (i : grid1.Coords)
    (arg2 : Memref sig .tc .vmem S1024x128 .bf16) (harg2 : arg2.IsWhole)
    (arg3 : Memref sig .tc .vmem S1024x128 .bf16) (harg3 : arg3.IsWhole)
    (arg4 : Memref sig .tc .vmem S1x1 .f32) (harg4 : arg4.IsWhole)
    (arg5 : Memref sig .tc .vmem S1x1 .f32) (harg5 : arg5.IsWhole)
    (hc0 : ¬cond1_0 i) (hc1 : k1_cond2 i = 1#1)
    (a b : Vec F S1024x128 .bf16) (s : Vec F S1x1 .f32) (K : PUnit → sProp 𝕄) :
    iprop(owns (c : Thread nD τ) arg2 fullShare a ∗ owns (c : Thread nD τ) arg3 fullShare b ∗ (∃ d, owns (c : Thread nD τ) arg4 fullShare d)
        ∗ owns (c : Thread nD τ) arg5 fullShare s
        ∗ (iprop(owns (c : Thread nD τ) arg2 fullShare a ∗ owns (c : Thread nD τ) arg3 fullShare b
            ∗ owns (c : Thread nD τ) arg4 fullShare (k1_pay2 a b s)
            ∗ owns (c : Thread nD τ) arg5 fullShare (k1_pay2 a b s)) -∗ K ⟨⟩))
      ⊢ wp frame (wpE (defs₀ (F := F)) Variants.none c none) E (cc1__matmul_sum_kernel i arg2 harg2 arg3 harg3 arg4 harg4 arg5 harg5) K := by
  simp only [cc1__matmul_sum_kernel_eq_skeleton]; unfold cc1__matmul_sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    -- the output cell's one store carries what the scratch cell reads after its own one store
    sl_unfold_words
    rw [View.read_writes_eq_canon _ _ _ (cover1x1 _ _), View.canon_unit_zero (S := S1x1) hz2, View.readCov_unit_zero (S := S1x1) _ hz2]
    simp only [View.readAt_eq_ld, View.ld_unit_zero (S := S1024x128) hz2, View.ld_unit_zero (S := S1x1) hz2]
  iexists _; isplitr
  swap; · iexact H5
  ipureintro
  sl_unfold_words
  rw [View.read_writes_eq_canon _ _ _ (cover1x1 _ _), View.canon_unit_zero (S := S1x1) hz2]
  simp only [View.readAt_eq_ld, View.ld_unit_zero (S := S1024x128) hz2, View.ld_unit_zero (S := S1x1) hz2]

/-! ## The conditions and the schedule in closed form over the grid -/

/-- The reset's condition holds at the first of the 256 points only. -/
theorem hcond1_0 : ∀ t : Fin cfg1.N, cond1_0 (grid1.coords t) ↔ t.val = 0 :=
  (by decide +kernel : ∀ t : Fin grid1.N, cond1_0 (grid1.coords t) ↔ t.val = 0)

/-- The copy-out's condition holds at the last of the 256 points only. -/
theorem hcond1_1 : ∀ t : Fin cfg1.N, k1_cond2 (grid1.coords t) = 1#1 ↔ t.val = 255 :=
  (by decide +kernel : ∀ t : Fin grid1.N, k1_cond2 (grid1.coords t) = 1#1 ↔ t.val = 255)

/-- The input windows are never idle. -/
theorem liveAt1_0 (t : Fin cfg1.N) : cfg1.idle 0 (cfg1.grid.coords t) = false := rfl
theorem liveAt1_1 (t : Fin cfg1.N) : cfg1.idle 1 (cfg1.grid.coords t) = false := rfl

/-- The output window is idle exactly where the copy-out's condition fails, -/
theorem idleAt1_2 (t : Fin cfg1.N) (h : ¬k1_cond2 (grid1.coords t) = 1#1) : cfg1.idle 2 (cfg1.grid.coords t) = true := by
  show (!(k1_cond2 (grid1.coords t) == 1#1)) = true
  rw [Bool.not_eq_true', beq_eq_false_iff_ne]; exact h

/-- and live where it holds. -/
theorem liveAt1_2 (t : Fin cfg1.N) (h : k1_cond2 (grid1.coords t) = 1#1) : cfg1.idle 2 (cfg1.grid.coords t) = false := by
  show (!(k1_cond2 (grid1.coords t) == 1#1)) = false
  rw [h]; rfl

/-- Before the last point the output block is not written back. -/
theorem noFlush1_2 (t : Fin cfg1.N) (h : ¬t.val = 255) : (cfg1.win 2).flush t = false := by
  have hN : t.val < 256 := lt_of_lt_of_eq t.isLt (show cfg1.N = 256 from N_1)
  exact Bool.eq_false_iff.mpr fun hf => h (by have := (flush1_2 t).mp hf; omega)

/-! ## The running sum, one point at a time -/

/-- The running sum after point `t` is the running sum before it plus the point's tile sum. -/
theorem accUpTo_succ (c : Dev nD) (t : Fin cfg1.N) :
    accUpTo V c (t.val + 1) = k1_pay2 (iblk1 V c 0 t) (iblk1 V c 1 t) (accUpTo V c t.val) := by
  rw [accUpTo, dif_pos t.isLt]

/-- After the first point it is zero plus that point's tile sum. -/
theorem accUpTo_first (c : Dev nD) (t : Fin cfg1.N) (h0 : t.val = 0) :
    accUpTo V c (t.val + 1) = k1_pay2 (iblk1 V c 0 t) (iblk1 V c 1 t) k1_pay1 := by
  rw [accUpTo_succ, h0]; rfl

/-! ## What the input windows hold -/

/-- Input window 0's current buffer holds its block at every point, whether or not the block was
    fetched there (its block index moves only every sixteenth point; where it has not moved the buffer
    still holds the same block), for any proof data over the region's arrays whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

/-! ## The body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: each window's buffer at what the body leaves there, the output window's
    handed back as found wherever it is idle and not written back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1600000 in
/-- The body at any point.  Both input buffers hold their blocks.  At the first point the scratch
    cell holds anything and ends at zero plus the tile sum, the running sum after one point; at any
    later point it holds the running sum of the points before and ends at the running sum through this
    one.  The output buffer is handed back untouched everywhere but at the last point, where it ends at
    the running sum of all points.  The unused buffers and the generator register pass through; the
    core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl, Phi1_eq, Phi1_eq]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 256 := lt_of_lt_of_eq t.isLt (show cfg1.N = 256 from N_1)
  unfold Phi1
  by_cases h0 : t.val = 0
  · -- the first point: reset, then add
    have hl : ¬t.val = 255 := by omega
    rw [Dat.leavesExact_idle (dat1 V c) 2 t (idleAt1_2 t (fun h => hl ((hcond1_1 t).mp h))) (noFlush1_2 t hl)]
    iintro ⟨⟨⟨%s, -, HS⟩, Hrest, Hg⟩, Ho, ⟨%d0, H0⟩, ⟨%d1, H1⟩, Hw⟩
    iapply (sound_kernel1_first c Set.univ _ _ _ _ _ _ _ _ _ ((hcond1_0 t).mpr h0) (fun h => hl ((hcond1_1 t).mp h)) (iblk1 V c 0 t) (iblk1 V c 1 t) _)
    isplitl [H0]; · iexact H0
    isplitl [H1]; · iexact H1
    isplitl [HS]; · iexists _; iexact HS
    iintro ⟨H0, H1, HS⟩
    isplitl [HS Hrest Hg]
    · isplitl [HS]
      · iexists _; isplitr
        swap; · iexact HS
        ipureintro; intro _
        rw [Fin.val_succ, accUpTo_first V c t h0]
      isplitl [Hrest]; · iexact Hrest
      iexact Hg
    isplitl [Ho]; · iexact Ho
    isplitl [H0]; · iexact H0
    isplitl [H1]; · iexact H1
    iexact Hw
  · by_cases hl : t.val = 255
    · -- the last point: add, then copy the cell to the output buffer
      rw [show (dat1 V c).leavesExact 2 t = owns (c : Thread nD τ) (st1_2 t) fullShare ((dat1 V c).after 2 t) from by
        unfold Dat.leavesExact; rw [liveAt1_2 t ((hcond1_1 t).mpr hl)], after1_2, accUpTo_succ]
      iintro ⟨⟨⟨%s, %hs, HS⟩, Hrest, Hg⟩, Ho, ⟨%d0, H0⟩, ⟨%d1, H1⟩, ⟨%d2, H2⟩⟩
      have hs' : s = accUpTo V c t.val := hs h0
      subst hs'
      iapply (sound_kernel1_last c Set.univ _ _ _ _ _ _ _ _ _ (fun h => h0 ((hcond1_0 t).mp h)) ((hcond1_1 t).mpr hl) (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS]
        · iexists _; isplitr
          swap; · iexact HS
          ipureintro; intro _
          rw [Fin.val_succ, accUpTo_succ]
        isplitl [Hrest]; · iexact Hrest
        iexact Hg
      isplitl [Ho]; · iexact Ho
      isplitl [H0]; · iexact H0
      isplitl [H1]; · iexact H1
      iexact H2
    · -- a middle point: add only
      rw [Dat.leavesExact_idle (dat1 V c) 2 t (idleAt1_2 t (fun h => hl ((hcond1_1 t).mp h))) (noFlush1_2 t hl)]
      iintro ⟨⟨⟨%s, %hs, HS⟩, Hrest, Hg⟩, Ho, ⟨%d0, H0⟩, ⟨%d1, H1⟩, Hw⟩
      have hs' : s = accUpTo V c t.val := hs h0
      subst hs'
      iapply (sound_kernel1_mid c Set.univ _ _ _ _ _ _ _ _ _ (fun h => h0 ((hcond1_0 t).mp h)) (fun h => hl ((hcond1_1 t).mp h)) (iblk1 V c 0 t) (iblk1 V c 1 t) _ _)
      isplitl [H0]; · iexact H0
      isplitl [H1]; · iexact H1
      isplitl [HS]; · iexact HS
      iintro ⟨H0, H1, HS⟩
      isplitl [HS Hrest Hg]
      · isplitl [HS]
        · iexists _; isplitr
          swap; · iexact HS
          ipureintro; intro _
          rw [Fin.val_succ, accUpTo_succ]
        isplitl [Hrest]; · iexact Hrest
        iexact Hg
      isplitl [Ho]; · iexact Ho
      isplitl [H0]; · iexact H0
      isplitl [H1]; · iexact H1
      iexact Hw

/-- The library's body obligation for pipeline 1, at every point. -/
theorem body_obligation1 (c : Dev nD) : BodyObligation (dat1 (F := F) V c) (defs₀ (F := F)) Variants.none () Set.univ := by
  intro t
  rw [bigSep_W1, bigSep_W1]
  exact sound_body1 V c t

end Cert.Kernel.Hand

end
-- ==== Proof.BitsLaunch.lean ====
/-
  The run of the kernel program @main: region 0, region 1, then five host operations.
  The contents of the core's unscoped buffers at each boundary are a fold from the launch
  memory: region 0 leaves its output array at what its eight write-backs make of it; region 1
  leaves its one-cell output at what its last point writes back; the host operations then
  reshape, divide and subtract.  Each region is entered from "every unscoped buffer at the
  boundary's contents, the generator register at some state, nothing owed" and left at the next
  boundary's.  Region 1 reads ONE array through two input windows, so at its entry that array's
  ownership is split into two complementary halves, one per window, and joined again at its exit.
  The run's conclusion names every unscoped buffer's final contents, from which both the
  frame claim and the value claim are read.
-/
import proofs.«131188_j41266045780102_1_alg».proof.Proof.BitsRegion0
import proofs.«131188_j41266045780102_1_alg».proof.Proof.BitsRegion1
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
abbrev E0 : (c : Dev nD) → (b : Ref sig .tc) → Buf (Elt F) ((c : Thread nD τ).loc b) := fun c b => W0 m ρ c b
/-- At region 0's exit: its output array at what the write-backs leave, every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- At region 1's exit: the one-cell output array at what the last point writes back, every other buffer as entered. -/
def W2 (c : Dev nD) : Valuation τ sig (Elt F) :=
  Function.update (W1 m ρ c) (Proc.devRef .tc main_v1) ((dat1 (E1 m ρ) c).arrAt 2 cfg1.N)
abbrev E2 : (c : Dev nD) → (b : Ref sig .tc) → Buf (Elt F) ((c : Thread nD τ).loc b) := fun c b => W2 m ρ c b
theorem W2_out (c : Dev nD) : W2 m ρ c (Proc.devRef .tc main_v1) = (dat1 (E1 m ρ) c).arrAt 2 cfg1.N := by
  unfold W2; exact Function.update_self ..
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) _ _
/-- After the host operations. -/
abbrev W3 : Dev nD → Valuation τ sig (Elt F) := fun c => StableHlo.after hostOps2 (W2 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1's arrays: one array behind two input windows -/

/-- The distinct buffers behind region 1's windows: the array both input windows read, and the output cell. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v1) ↦{fullShare} V main_v1)) := by
  unfold Pipeline.arrBufs
  exact bigSep_eq_bigSepL_of_eq [main_v0, main_v1] (by decide) (by decide) _

/-- Region 1's windowed arrays, window by window: the shared array at the two halves, the output cell whole. -/
theorem arrays1_eq (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2)) := by
  unfold Dat.arrays
  rw [bigSep_W1, (arr_whole1 0).set_eq_univ, (arr_whole1 2).set_eq_univ]
  rfl

/-- The input windows' array is never written: at every point it holds its entry contents. -/
theorem arrAt1_0 (c : Dev nD) (V : (c : Dev nD) → (b : Ref sig .tc) → Buf (Elt F) ((c : Thread nD τ).loc b)) (n : ℕ) :
    (dat1 V c).arrAt 0 n = V c main_v0 := ((dat1 V c).arrAt_in 0 rfl _).trans (A_eq1 V c 0)
theorem arrAt1_1 (c : Dev nD) (V : (c : Dev nD) → (b : Ref sig .tc) → Buf (Elt F) ((c : Thread nD τ).loc b)) (n : ℕ) :
    (dat1 V c).arrAt 1 n = V c main_v0 := ((dat1 V c).arrAt_in 1 rfl _).trans (A_eq1 V c 1)

/-- ENTRY: every unscoped buffer at the entry contents is region 1's arrays at their entry contents — the shared
    array split into its two halves — and the unscoped rest. -/
theorem entry1 (c : Dev nD) (V : (c : Dev nD) → (b : Ref sig .tc) → Buf (Elt F) ((c : Thread nD τ).loc b)) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  have hs : (unscopedBufs (Ix := Unit) (Name := ℕ) (U := UR sig nD τ) (Lvl := ℕ) c (V c) : sProp 𝕄)
      = iprop(Pipeline.arrBufs spec1 c (V c) ∗ Pipeline.unscopedRest spec1 c (V c)) :=
    Pipeline.unscopedBufs_split₀ cfgs 1 winFacts₀1.arr_unscoped c (V c)
  rw [hs, arrBufs1_eq, arrays1_eq]
  rw [show (dat1 V c).arrAt 0 0 = V c main_v0 from arrAt1_0 c V 0, show (dat1 V c).arrAt 1 0 = V c main_v0 from arrAt1_1 c V 0,
    show (dat1 V c).arrAt 2 0 = V c main_v1 from A_eq1 V c 2]
  iintro ⟨⟨H0, H1⟩, Hr⟩
  ihave H := (pointsTo_share (PosShare.mem_left_op_right fullShare)).1 $$ H0
  icases H with ⟨Hl, Hrt⟩
  isplitr [Hr]
  · isplitl [Hl]; · iexact Hl
    isplitl [Hrt]; · iexact Hrt
    iexact H1
  iexact Hr

/-- EXIT: region 1's arrays at their final contents and the unscoped rest at the entry contents are every unscoped
    buffer at any valuation that has the output cell at its final contents and agrees with the entry off it. -/
theorem exit1 (c : Dev nD) (V : (c : Dev nD) → (b : Ref sig .tc) → Buf (Elt F) ((c : Thread nD τ).loc b))
    (V' : (b : Ref sig .tc) → Buf (Elt F) ((c : Thread nD τ).loc b))
    (hout : V' main_v1 = (dat1 V c).arrAt 2 cfg1.N) (hrest : ∀ b, b ≠ main_v1 → V' b = V c b) :
    iprop((dat1 V c).arrays ((dat1 V c).arrAt · cfg1.N) ∗ Pipeline.unscopedRest spec1 c (V c))
      ⊢ (unscopedBufs (Ix := Unit) (Name := ℕ) (U := UR sig nD τ) (Lvl := ℕ) c V' : sProp 𝕄) := by
  have hs : (unscopedBufs (Ix := Unit) (Name := ℕ) (U := UR sig nD τ) (Lvl := ℕ) c V' : sProp 𝕄)
      = iprop(Pipeline.arrBufs spec1 c V' ∗ Pipeline.unscopedRest spec1 c V') :=
    Pipeline.unscopedBufs_split₀ cfgs 1 winFacts₀1.arr_unscoped c V'
  rw [hs, arrBufs1_eq, arrays1_eq, arrAt1_0, arrAt1_1, hout, hrest main_v0 (by decide)]
  have hR : (Pipeline.unscopedRest (Ix := Unit) (Name := ℕ) (U := UR sig nD τ) (Lvl := ℕ) spec1 c V' : sProp 𝕄)
      = Pipeline.unscopedRest spec1 c (V c) := by
    unfold Pipeline.unscopedRest
    exact bigSep_congr fun b hb => by
      rw [hrest b (fun e => (Finset.mem_sdiff.mp hb).2 (Finset.mem_image.mpr ⟨2, Finset.mem_univ _, e ▸ rfl⟩))]
  rw [hR]
  iintro ⟨⟨Hl, Hrt, H1⟩, Hr⟩
  isplitr [Hr]
  · isplitr [H1]
    · iapply (pointsTo_share (PosShare.mem_left_op_right fullShare)).2
      isplitl [Hl]; · iexact Hl
      iexact Hrt
    iexact H1
  iexact Hr

set_option backward.isDefEq.respectTransparency.types false in
/-- Region 1 over the thread state: entered from every unscoped buffer at `W1`, left at `W2`.  The scratch cell
    enters the invariant at anything (the first point resets it) and leaves it at anything. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit : (unscopedBufs (Ix := Unit) (Name := ℕ) (U := UR sig nD τ) (Lvl := ℕ) c (E1 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (E1 m ρ c)) :=
      entry1 (F := F) c (E1 m ρ)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Phi1 (E1 m ρ) c 0 from rfl]; unfold Phi1 rest1
    have hsr := scopedRest1_eq (Ix := Unit) (Val := Elt F) (Name := ℕ) (U := UR sig nD τ) (Lvl := ℕ) c
    rw [show Pipeline.scopedRest (Ix := Unit) (Name := ℕ) (U := UR sig nD τ) (Lvl := ℕ) (Val := Elt F) (Pipeline.pin (pcfgs (F := F)) adm 1).spec c
      = Pipeline.scopedRest (Ix := Unit) (Name := ℕ) (U := UR sig nD τ) (Lvl := ℕ) (Val := Elt F) spec1 c from rfl, hsr]
    iintro ⟨Hp, -, H1, H2, H3, H4, ⟨%f, Hs⟩⟩
    isplitl [Hs]
    · iexists ((Memref.whole cc1_scratch0).view.read (Elt F) f)
      isplitr; · ipureintro; intro h; exact absurd rfl h
      unfold owns; iexists f; isplitr; · ipureintro; rfl
      rw [(Memref.isWhole_whole cc1_scratch0).set_eq_univ]; iexact Hs
    isplitr [Hp]
    · isplitl [H1]; · iexact H1
      isplitl [H2]; · iexact H2
      isplitl [H3]; · iexact H3
      iexact H4
    iexact Hp
  hout c := by
    rw [Pipeline.ownSems0_none, show (pdats m ρ 1 c).Φ (Fin.last _) = Phi1 (E1 m ρ) c (Fin.last _) from rfl]; unfold Phi1 rest1
    have hsr := scopedRest1_eq (Ix := Unit) (Val := Elt F) (Name := ℕ) (U := UR sig nD τ) (Lvl := ℕ) c
    rw [show Pipeline.scopedRest (Ix := Unit) (Name := ℕ) (U := UR sig nD τ) (Lvl := ℕ) (Val := Elt F) (Pipeline.pin (pcfgs (F := F)) adm 1).spec c
      = Pipeline.scopedRest (Ix := Unit) (Name := ℕ) (U := UR sig nD τ) (Lvl := ℕ) (Val := Elt F) spec1 c from rfl, hsr]
    iintro ⟨⟨%s, -, Hs⟩, ⟨H1, H2, H3, H4⟩, Hp⟩
    isplitl [Hp]; · iexact Hp
    isplitr; · iempintro
    unfold owns; icases Hs with ⟨%f, -, Hs⟩
    rw [(Memref.isWhole_whole cc1_scratch0).set_eq_univ]
    isplitl [H1]; · iexact H1
    isplitl [H2]; · iexact H2
    isplitl [H3]; · iexact H3
    isplitl [H4]; · iexact H4
    iexists f; iexact Hs
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (E1 m ρ c))
        ⊢ (unscopedBufs (Ix := Unit) (Name := ℕ) (U := UR sig nD τ) (Lvl := ℕ) c (E2 m ρ c) : sProp 𝕄) :=
      exit1 (F := F) c (E1 m ρ) (E2 m ρ c) (W2_out m ρ c) (fun b hb => W2_of_ne m ρ c b hb)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

/-! ## @main as segments, and the launch -/

theorem hostOps2_fresh' : (hostOps2 : List (HloOp τ sig (Elt F))).Forall fun op => op.fresh = ∅ := by
  simp only [List.Forall]; repeat' constructor

/-- @main's three segments in order: the two regions, then the host operations from region 1's exit contents. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh' (W2 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing
    faulting, and the final memory holds every unscoped buffer at the last boundary's contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## The argument array ends as launched -/

/-- No host operation writes the argument array, region 1 does not window it, and region 0 only reads it:
    the fold at its buffer walks back to the launch memory. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := (W1_arr m ρ c 0).trans (((dat0 (E0 m ρ) c).arrAt_in 0 rfl _).trans (A_eq0 (E0 m ρ) c 0))
    _ = m ((c : Thread nD τ).loc main_arg0) := rfl

/-- The frame claim's conclusion, read off the run. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W3_main_arg0 m ρ c)) (run_main m ρ)

end Cert.Kernel.Hand

end
-- ==== Proof.Region0.lean ====
/-
  Region 0 of the kernel program: the row-normalising kernel on its grid of 8 points.
  Each point reads one block of 2048 rows of the argument array and stores, into the
  output window's buffer, every row divided by the larger of its Euclidean norm and the
  clamp constant.  Stated here, at any entry contents `V` of the core's buffers and at
  any float instance: the block each window holds at a point, what the body leaves in
  the output buffer as ONE function of the input block, the body's triple, the proof
  data of the pipeline (inputs keep their block, the output holds the normalised block,
  nothing else is kept between points) and the body obligation at every point.
-/
import proofs.«131188_j41266045780102_1_alg».proof.Proof.Gen.KernelIdeal.Launch
import proofs.«131188_j41266045780102_1_alg».proof.Proof.Gen.KernelIdeal.Skeleton
import proofs.«131188_j41266045780102_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds its block at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body loads and stores through: the whole 2048 × 128 buffer. -/
abbrev r0_0 : Rect S2048x128 := Rect.unit (s := S2048x128) ![0, 0] S2048x128.size inb_S2048x128_S2048x128_0_0

/-- The output buffer after the body, from the input block: the one whole-buffer store of the
    normalised rows. -/
def out0_1 (x0 : Vec F S2048x128 .f32) : Vec F S2048x128 .bf16 :=
  View.canon [⟨r0_0, k0_pay1 (View.ld x0 r0_0)⟩]

/-- The store covers the buffer. -/
theorem cover0_1 (p0 : Vec F S2048x128 .bf16) (y : S2048x128.Idx) :
    ∃ pc ∈ ([⟨r0_0, p0⟩] : List (View.Piece (Elt F) S2048x128 .bf16)), y ∈ pc.1.set :=
  View.cover_of_tiled [⟨r0_0, p0⟩] S2048x128.size (by rfl) y

set_option maxHeartbeats 1000000 in
/-- The body's triple: from the input buffer at `x0` and the output buffer at anything, to the
    input buffer unchanged and the output buffer at `out0_1 x0`. -/
theorem sound_kernel0 (c : Dev nD) (E : Set ℕ) (i : grid0.Coords) (arg1 : Memref sig .tc .vmem S2048x128 .f32) (harg1 : arg1.IsWhole) (arg2 : Memref sig .tc .vmem S2048x128 .bf16) (harg2 : arg2.IsWhole)
    (x0 : Vec F S2048x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1Data.lean ====
/-
  Region 1 of the kernel program: the kernel that sums every entry of the product of the
  normalised array with its own transpose, tile by tile, on a 16 × 16 grid.  Point (i, j) reads
  row block i and row block j (1024 rows each) of the SAME array, multiplies the first by the
  transpose of the second, sums the tile, and adds the sum to a one-cell scratch that the first
  point resets to zero; the last point copies the scratch to the one-cell output.
  This module fixes the proof data: the blocks, the running sum after the first n points, the
  invariant that carries the scratch cell between points, and the data record.
-/
import proofs.«131188_j41266045780102_1_alg».proof.Proof.Gen.KernelIdeal.Launch
import proofs.«131188_j41266045780102_1_alg».proof.Proof.Gen.KernelIdeal.Skeleton
import proofs.«131188_j41266045780102_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running sum the scratch cell holds after the first `n` grid points: zero, then each
    point's tile sum added in grid order. -/
def accUpTo (c : Dev nD) : ℕ → Vec F S1x1 .f32
  | 0 => k1_pay1
  | n + 1 => if h : n < cfg1.N then k1_pay2 (iblk1 V c 0 ⟨n, h⟩) (iblk1 V c 1 ⟨n, h⟩) (accUpTo c n) else accUpTo c n

/-- The scoped buffers of the core that region 1 neither stages nor uses: region 0's staging buffers. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The invariant before point `t` (after point `t - 1`): the scratch cell holds the running sum of
    the points below `t` (anything before the first point, which resets it); the unused scoped
    buffers and the generator register ride along. -/
def Phi1 (c : Dev nD) (t : Fin (cfg1.N + 1)) : sProp 𝕄 :=
  iprop((∃ s : Vec F S1x1 .f32, ⌜t.val ≠ 0 → s = accUpTo V c t.val⌝ ∗ owns (c : Thread nD τ) (Memref.whole cc1_scratch0) fullShare s)
    ∗ rest1 (F := F) c ∗ ∃ r, prngReg c r)

/-- The proof data of pipeline 1 on core `c`: the arrays as the region finds them; both input
    windows keep their blocks; the output window's buffer holds the running sum where the body
    stores it (the last point); the two input windows, which read one array, hold complementary
    halves of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accUpTo V c (t.val + 1)
  Φ t := Phi1 V c t
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accUpTo V c (t.val + 1) := by dsimp only [dat1]
theorem Phi1_eq (c : Dev nD) (t : Fin (cfg1.N + 1)) : (dat1 V c).Φ t = Phi1 V c t := by dsimp only [dat1]
theorem owed1 (c : Dev nD) (t : Fin (cfg1.N + 1)) : (dat1 V c).owed t = 0 := rfl

end Cert.KernelIdeal.Hand

end
-- ==== Proof.Region1.lean ====
/-
  Region 1's body obligation: at every grid point the summing kernel, called on its windows'
  current buffers, takes the invariant before the point to the invariant after it.  Three
  control cases: the first point resets the scratch cell and adds its tile sum; a middle point
  adds its tile sum; the last point adds its tile sum and copies the cell to the output buffer.
-/
import proofs.«131188_j41266045780102_1_alg».proof.Proof.Region1Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The kernel body on any whole buffers, one triple per control case -/

/-- The condition under which the body resets the scratch cell, as a function of the grid
    coordinates: both coordinates are zero. -/
abbrev cond1_0 (i : grid1.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- The zero offsets of a rank-2 rectangle, as a constant function. -/
theorem hz2 : (![0, 0] : Fin 2 → Nat) = fun _ => 0 := funext fun a => by fin_cases a <;> rfl

/-- A store through the whole one-cell rectangle, made last, covers the one-cell buffer whatever was
    stored before it. -/
theorem cover1x1 (p0 : Vec F S1x1 .f32) (L : List (View.Piece (Elt F) S1x1 .f32)) (y : S1x1.Idx) :
    ∃ pc ∈ ((⟨Rect.unit (s := S1x1) ![0, 0] S1x1.size inb_S1x1_S1x1_0_0, p0⟩ : View.Piece (Elt F) S1x1 .f32) :: L), y ∈ pc.1.set :=
  ⟨_, List.mem_cons_self, View.mem_set_unit_zero hz2 inb_S1x1_S1x1_0_0 y⟩

set_option maxHeartbeats 1000000 in
/-- A MIDDLE point (neither condition holds): from the two input buffers at blocks `a`, `b` and the
    scratch cell at `s`, the body leaves the inputs as they were and the scratch cell at `s` plus the
    tile sum of `a` against `b`.  The output buffer is not touched, so it is not mentioned. -/
theorem sound_kernel1_mid (c : Dev nD) (E : Set ℕ) (i : grid1.Coords)
    (arg2 : Memref sig .tc .vmem S1024x128 .bf16) (harg2 : arg2.IsWhole)
    (arg3 : Memref sig .tc .vmem S1024x128 .bf16) (harg3 : arg3.IsWhole)
    (arg4 : Memref sig .tc .vmem S1x1 .f32) (harg4 : arg4.IsWhole)
    (arg5 : Memref sig .tc .vmem S1x1 .f32) (harg5 : arg5.IsWhole)
    (hc0 : ¬cond1_0 i) (hc1 : ¬k1_cond2 i = 1#1)
    (a b : Vec F S1024x128 .bf16) (s : Vec F S1x1 .f32) (K : PUnit → sProp 𝕄) :
    iprop(owns (c : Thread nD τ) arg2 fullShare a ∗ owns (c : Thread nD τ) arg3 fullShare b ∗ owns (c : Thread nD τ) arg5 fullShare s
        ∗ (iprop(owns (c : Thread nD τ) arg2 fullShare a ∗ owns (c : Thread nD τ) arg3 fullShare b
            ∗ owns (c : Thread nD τ) arg5 fullShare (k1_pay2 a b s)) -∗ K ⟨⟩))
      ⊢ wp frame (wpE (defs₀ (F := F)) Variants.none c none) E (cc1__matmul_sum_kernel i arg2 harg2 arg3 harg3 arg4 harg4 arg5 harg5) K := by
  simp only [cc1__matmul_sum_kernel_eq_skeleton]; unfold cc1__matmul_sum_kernel_skel
  unfold owns
  iintro ⟨⟨%f2, %hf2, H2⟩, ⟨%f3, %hf3, H3⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  -- one whole-cell store: the cell reads its payload, and each whole-buffer load reads the contents
  rw [View.read_writes_eq_canon _ _ _ (cover1x1 _ _), View.canon_unit_zero hz2]
  simp only [View.readAt_eq_ld, View.ld_unit_zero (S := S1024x128) hz2, View.ld_unit_zero (S := S1x1) hz2]

set_option maxHeartbeats 1000000 in
/-- The FIRST point (the reset's condition holds, the copy-out's does not): whatever the scratch cell
    held, the body resets it to zero and then adds the tile sum, so it ends at zero plus the tile sum
    of `a` against `b`. -/
theorem sound_kernel1_first (c : Dev nD) (E : Set ℕ) (i : grid1.Coords)
    (arg2 : Memref sig .tc .vmem S1024x128 .bf16) (harg2 : arg2.IsWhole)
    (arg3 : Memref sig .tc .vmem S1024x128 .bf16) (harg3 : arg3.IsWhole)
    (arg4 : Memref sig .tc .vmem S1x1 .f32) (harg4 : arg4.IsWhole)
    (arg5 : Memref sig .tc .vmem S1x1 .f32) (harg5 : arg5.IsWhole)
    (hc0 : cond1_0 i) (hc1 : ¬k1_cond2 i = 1#1)
    (a b : Vec F S1024x128 .bf16) (K : PUnit → sProp 𝕄) :
    iprop(owns (c : Thread nD τ) arg2 fullShare a ∗ owns (c : Thread nD τ) arg3 fullShare b ∗ (∃ s, owns (c : Thread nD τ) arg5 fullShare s)
        ∗ (iprop(owns (c : Thread nD τ) arg2 fullShare a ∗ owns (c : Thread nD τ) arg3 fullShare b
            ∗ owns (c : Thread nD τ) arg5 fullShare (k1_pay2 a b k1_pay1)) -∗ K ⟨⟩))
      ⊢ wp frame (wpE (defs₀ (F := F)) Variants.none c none) E (cc1__matmul_sum_kernel i arg2 harg2 arg3 harg3 arg4 harg4 arg5 harg5) K := by
  simp only [cc1__matmul_sum_kernel_eq_skeleton]; unfold cc1__matmul_sum_kernel_skel
  unfold owns
  iintro ⟨⟨%f2, %hf2, H2⟩, ⟨%f3, %hf3, H3⟩, ⟨%s, %f5, -, H5⟩, Hk⟩
  subst hf2; subst hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  -- two whole-cell stores, the zero first: the cell reads the later payload, whose scratch operand
  -- is the zero read back through the earlier store
  sl_unfold_words
  rw [View.read_writes_eq_canon _ _ _ (cover1x1 _ _), View.canon_cons_unit_zero (S := S1x1) hz2, View.readCov_unit_zero (S := S1x1) _ hz2]
  simp only [View.readAt_eq_ld, View.ld_unit_zero (S := S1024x128) hz2, View.ld_unit_zero (S := S1x1) hz2]

set_option maxHeartbeats 1000000 in
/-- The LAST point (the copy-out's condition holds, the reset's does not): the scratch cell goes
    from `s` to `s` plus the tile sum, and the output buffer, whatever it held, ends at the same value,
    read back from the scratch cell after the store. -/
theorem sound_kernel1_last (c : Dev nD) (E : Set ℕ) (i : grid1.Coords)
    (arg2 : Memref sig .tc .vmem S1024x128 .bf16) (harg2 : arg2.IsWhole)
    (arg3 : Memref sig .tc .vmem S1024x128 .bf16) (harg3 : arg3.IsWhole)
    (arg4 : Memref sig .tc .vmem S1x1 .f32) (harg4 : arg4.IsWhole)
    (arg5 : Memref sig .tc .vmem S1x1 .f32) (harg5 : arg5.IsWhole)
    (hc0 : ¬cond1_0 i) (hc1 : k1_cond2 i = 1#1)
    (a b : Vec F S1024x128 .bf16) (s : Vec F S1x1 .f32) (K : PUnit → sProp 𝕄) :
    iprop(owns (c : Thread nD τ) arg2 fullShare a ∗ owns (c : Thread nD τ) arg3 fullShare b ∗ (∃ d, owns (c : Thread nD τ) arg4 fullShare d)
        ∗ owns (c : Thread nD τ) arg5 fullShare s
        ∗ (iprop(owns (c : Thread nD τ) arg2 fullShare a ∗ owns (c : Thread nD τ) arg3 fullShare b
            ∗ owns (c : Thread nD τ) arg4 fullShare (k1_pay2 a b s)
            ∗ owns (c : Thread nD τ) arg5 fullShare (k1_pay2 a b s)) -∗ K ⟨⟩))
      ⊢ wp frame (wpE (defs₀ (F := F)) Variants.none c none) E (cc1__matmul_sum_kernel i arg2 harg2 arg3 harg3 arg4 harg4 arg5 harg5) K := by
  simp only [cc1__matmul_sum_kernel_eq_skeleton]; unfold cc1__matmul_sum_kernel_skel
  unfold owns
  iintro ⟨⟨%f2, %hf2, H2⟩, ⟨%f3, %hf3, H3⟩, ⟨%d, %f4, -, H4⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    -- the output cell's one store carries what the scratch cell reads after its own one store
    sl_unfold_words
    rw [View.read_writes_eq_canon _ _ _ (cover1x1 _ _), View.canon_unit_zero (S := S1x1) hz2, View.readCov_unit_zero (S := S1x1) _ hz2]
    simp only [View.readAt_eq_ld, View.ld_unit_zero (S := S1024x128) hz2, View.ld_unit_zero (S := S1x1) hz2]
  iexists _; isplitr
  swap; · iexact H5
  ipureintro
  sl_unfold_words
  rw [View.read_writes_eq_canon _ _ _ (cover1x1 _ _), View.canon_unit_zero (S := S1x1) hz2]
  simp only [View.readAt_eq_ld, View.ld_unit_zero (S := S1024x128) hz2, View.ld_unit_zero (S := S1x1) hz2]

/-! ## The conditions and the schedule in closed form over the grid -/

/-- The reset's condition holds at the first of the 256 points only. -/
theorem hcond1_0 : ∀ t : Fin cfg1.N, cond1_0 (grid1.coords t) ↔ t.val = 0 :=
  (by decide +kernel : ∀ t : Fin grid1.N, cond1_0 (grid1.coords t) ↔ t.val = 0)

/-- The copy-out's condition holds at the last of the 256 points only. -/
theorem hcond1_1 : ∀ t : Fin cfg1.N, k1_cond2 (grid1.coords t) = 1#1 ↔ t.val = 255 :=
  (by decide +kernel : ∀ t : Fin grid1.N, k1_cond2 (grid1.coords t) = 1#1 ↔ t.val = 255)

/-- The input windows are never idle. -/
theorem liveAt1_0 (t : Fin cfg1.N) : cfg1.idle 0 (cfg1.grid.coords t) = false := rfl
theorem liveAt1_1 (t : Fin cfg1.N) : cfg1.idle 1 (cfg1.grid.coords t) = false := rfl

/-- The output window is idle exactly where the copy-out's condition fails, -/
theorem idleAt1_2 (t : Fin cfg1.N) (h : ¬k1_cond2 (grid1.coords t) = 1#1) : cfg1.idle 2 (cfg1.grid.coords t) = true := by
  show (!(k1_cond2 (grid1.coords t) == 1#1)) = true
  rw [Bool.not_eq_true', beq_eq_false_iff_ne]; exact h

/-- and live where it holds. -/
theorem liveAt1_2 (t : Fin cfg1.N) (h : k1_cond2 (grid1.coords t) = 1#1) : cfg1.idle 2 (cfg1.grid.coords t) = false := by
  show (!(k1_cond2 (grid1.coords t) == 1#1)) = false
  rw [h]; rfl

/-- Before the last point the output block is not written back. -/
theorem noFlush1_2 (t : Fin cfg1.N) (h : ¬t.val = 255) : (cfg1.win 2).flush t = false := by
  have hN : t.val < 256 := lt_of_lt_of_eq t.isLt (show cfg1.N = 256 from N_1)
  exact Bool.eq_false_iff.mpr fun hf => h (by have := (flush1_2 t).mp hf; omega)

/-! ## The running sum, one point at a time -/

/-- The running sum after point `t` is the running sum before it plus the point's tile sum. -/
theorem accUpTo_succ (c : Dev nD) (t : Fin cfg1.N) :
    accUpTo V c (t.val + 1) = k1_pay2 (iblk1 V c 0 t) (iblk1 V c 1 t) (accUpTo V c t.val) := by
  rw [accUpTo, dif_pos t.isLt]

/-- After the first point it is zero plus that point's tile sum. -/
theorem accUpTo_first (c : Dev nD) (t : Fin cfg1.N) (h0 : t.val = 0) :
    accUpTo V c (t.val + 1) = k1_pay2 (iblk1 V c 0 t) (iblk1 V c 1 t) k1_pay1 := by
  rw [accUpTo_succ, h0]; rfl

/-! ## What the input windows hold -/

/-- Input window 0's current buffer holds its block at every point, whether or not the block was
    fetched there (its block index moves only every sixteenth point; where it has not moved the buffer
    still holds the same block), for any proof data over the region's arrays whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

/-! ## The body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: each window's buffer at what the body leaves there, the output window's
    handed back as found wherever it is idle and not written back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1600000 in
/-- The body at any point.  Both input buffers hold their blocks.  At the first point the scratch
    cell holds anything and ends at zero plus the tile sum, the running sum after one point; at any
    later point it holds the running sum of the points before and ends at the running sum through this
    one.  The output buffer is handed back untouched everywhere but at the last point, where it ends at
    the running sum of all points.  The unused buffers and the generator register pass through; the
    core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl, Phi1_eq, Phi1_eq]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 256 := lt_of_lt_of_eq t.isLt (show cfg1.N = 256 from N_1)
  unfold Phi1
  by_cases h0 : t.val = 0
  · -- the first point: reset, then add
    have hl : ¬t.val = 255 := by omega
    rw [Dat.leavesExact_idle (dat1 V c) 2 t (idleAt1_2 t (fun h => hl ((hcond1_1 t).mp h))) (noFlush1_2 t hl)]
    iintro ⟨⟨⟨%s, -, HS⟩, Hrest, Hg⟩, Ho, ⟨%d0, H0⟩, ⟨%d1, H1⟩, Hw⟩
    iapply (sound_kernel1_first c Set.univ _ _ _ _ _ _ _ _ _ ((hcond1_0 t).mpr h0) (fun h => hl ((hcond1_1 t).mp h)) (iblk1 V c 0 t) (iblk1 V c 1 t) _)
    isplitl [H0]; · iexact H0
    isplitl [H1]; · iexact H1
    isplitl [HS]; · iexists _; iexact HS
    iintro ⟨H0, H1, HS⟩
    isplitl [HS Hrest Hg]
    · isplitl [HS]
      · iexists _; isplitr
        swap; · iexact HS
        ipureintro; intro _
        rw [Fin.val_succ, accUpTo_first V c t h0]
      isplitl [Hrest]; · iexact Hrest
      iexact Hg
    isplitl [Ho]; · iexact Ho
    isplitl [H0]; · iexact H0
    isplitl [H1]; · iexact H1
    iexact Hw
  · by_cases hl : t.val = 255
    · -- the last point: add, then copy the cell to the output buffer
      rw [show (dat1 V c).leavesExact 2 t = owns (c : Thread nD τ) (st1_2 t) fullShare ((dat1 V c).after 2 t) from by
        unfold Dat.leavesExact; rw [liveAt1_2 t ((hcond1_1 t).mpr hl)], after1_2, accUpTo_succ]
      iintro ⟨⟨⟨%s, %hs, HS⟩, Hrest, Hg⟩, Ho, ⟨%d0, H0⟩, ⟨%d1, H1⟩, ⟨%d2, H2⟩⟩
      have hs' : s = accUpTo V c t.val := hs h0
      subst hs'
      iapply (sound_kernel1_last c Set.univ _ _ _ _ _ _ _ _ _ (fun h => h0 ((hcond1_0 t).mp h)) ((hcond1_1 t).mpr hl) (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS]
        · iexists _; isplitr
          swap; · iexact HS
          ipureintro; intro _
          rw [Fin.val_succ, accUpTo_succ]
        isplitl [Hrest]; · iexact Hrest
        iexact Hg
      isplitl [Ho]; · iexact Ho
      isplitl [H0]; · iexact H0
      isplitl [H1]; · iexact H1
      iexact H2
    · -- a middle point: add only
      rw [Dat.leavesExact_idle (dat1 V c) 2 t (idleAt1_2 t (fun h => hl ((hcond1_1 t).mp h))) (noFlush1_2 t hl)]
      iintro ⟨⟨⟨%s, %hs, HS⟩, Hrest, Hg⟩, Ho, ⟨%d0, H0⟩, ⟨%d1, H1⟩, Hw⟩
      have hs' : s = accUpTo V c t.val := hs h0
      subst hs'
      iapply (sound_kernel1_mid c Set.univ _ _ _ _ _ _ _ _ _ (fun h => h0 ((hcond1_0 t).mp h)) (fun h => hl ((hcond1_1 t).mp h)) (iblk1 V c 0 t) (iblk1 V c 1 t) _ _)
      isplitl [H0]; · iexact H0
      isplitl [H1]; · iexact H1
      isplitl [HS]; · iexact HS
      iintro ⟨H0, H1, HS⟩
      isplitl [HS Hrest Hg]
      · isplitl [HS]
        · iexists _; isplitr
          swap; · iexact HS
          ipureintro; intro _
          rw [Fin.val_succ, accUpTo_succ]
        isplitl [Hrest]; · iexact Hrest
        iexact Hg
      isplitl [Ho]; · iexact Ho
      isplitl [H0]; · iexact H0
      isplitl [H1]; · iexact H1
      iexact Hw

/-- The library's body obligation for pipeline 1, at every point. -/
theorem body_obligation1 (c : Dev nD) : BodyObligation (dat1 (F := F) V c) (defs₀ (F := F)) Variants.none () Set.univ := by
  intro t
  rw [bigSep_W1, bigSep_W1]
  exact sound_body1 V c t

end Cert.KernelIdeal.Hand

end
-- ==== Proof.Launch.lean ====
/-
  The run of the kernel program @main: region 0, region 1, then five host operations.
  The contents of the core's unscoped buffers at each boundary are a fold from the launch
  memory: region 0 leaves its output array at what its eight write-backs make of it; region 1
  leaves its one-cell output at what its last point writes back; the host operations then
  reshape, divide and subtract.  Each region is entered from "every unscoped buffer at the
  boundary's contents, the generator register at some state, nothing owed" and left at the next
  boundary's.  Region 1 reads ONE array through two input windows, so at its entry that array's
  ownership is split into two complementary halves, one per window, and joined again at its exit.
  The run's conclusion names every unscoped buffer's final contents, from which both the
  frame claim and the value claim are read.
-/
import proofs.«131188_j41266045780102_1_alg».proof.Proof.Region0
import proofs.«131188_j41266045780102_1_alg».proof.Proof.Region1
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
abbrev E0 : (c : Dev nD) → (b : Ref sig .tc) → Buf (Elt F) ((c : Thread nD τ).loc b) := fun c b => W0 m ρ c b
/-- At region 0's exit: its output array at what the write-backs leave, every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- At region 1's exit: the one-cell output array at what the last point writes back, every other buffer as entered. -/
def W2 (c : Dev nD) : Valuation τ sig (Elt F) :=
  Function.update (W1 m ρ c) (Proc.devRef .tc main_v1) ((dat1 (E1 m ρ) c).arrAt 2 cfg1.N)
abbrev E2 : (c : Dev nD) → (b : Ref sig .tc) → Buf (Elt F) ((c : Thread nD τ).loc b) := fun c b => W2 m ρ c b
theorem W2_out (c : Dev nD) : W2 m ρ c (Proc.devRef .tc main_v1) = (dat1 (E1 m ρ) c).arrAt 2 cfg1.N := by
  unfold W2; exact Function.update_self ..
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) _ _
/-- After the host operations. -/
abbrev W3 : Dev nD → Valuation τ sig (Elt F) := fun c => StableHlo.after hostOps2 (W2 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1's arrays: one array behind two input windows -/

/-- The distinct buffers behind region 1's windows: the array both input windows read, and the output cell. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v1) ↦{fullShare} V main_v1)) := by
  unfold Pipeline.arrBufs
  exact bigSep_eq_bigSepL_of_eq [main_v0, main_v1] (by decide) (by decide) _

/-- Region 1's windowed arrays, window by window: the shared array at the two halves, the output cell whole. -/
theorem arrays1_eq (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2)) := by
  unfold Dat.arrays
  rw [bigSep_W1, (arr_whole1 0).set_eq_univ, (arr_whole1 2).set_eq_univ]
  rfl

/-- The input windows' array is never written: at every point it holds its entry contents. -/
theorem arrAt1_0 (c : Dev nD) (V : (c : Dev nD) → (b : Ref sig .tc) → Buf (Elt F) ((c : Thread nD τ).loc b)) (n : ℕ) :
    (dat1 V c).arrAt 0 n = V c main_v0 := ((dat1 V c).arrAt_in 0 rfl _).trans (A_eq1 V c 0)
theorem arrAt1_1 (c : Dev nD) (V : (c : Dev nD) → (b : Ref sig .tc) → Buf (Elt F) ((c : Thread nD τ).loc b)) (n : ℕ) :
    (dat1 V c).arrAt 1 n = V c main_v0 := ((dat1 V c).arrAt_in 1 rfl _).trans (A_eq1 V c 1)

/-- ENTRY: every unscoped buffer at the entry contents is region 1's arrays at their entry contents — the shared
    array split into its two halves — and the unscoped rest. -/
theorem entry1 (c : Dev nD) (V : (c : Dev nD) → (b : Ref sig .tc) → Buf (Elt F) ((c : Thread nD τ).loc b)) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  have hs : (unscopedBufs (Ix := Unit) (Name := ℕ) (U := UR sig nD τ) (Lvl := ℕ) c (V c) : sProp 𝕄)
      = iprop(Pipeline.arrBufs spec1 c (V c) ∗ Pipeline.unscopedRest spec1 c (V c)) :=
    Pipeline.unscopedBufs_split₀ cfgs 1 winFacts₀1.arr_unscoped c (V c)
  rw [hs, arrBufs1_eq, arrays1_eq]
  rw [show (dat1 V c).arrAt 0 0 = V c main_v0 from arrAt1_0 c V 0, show (dat1 V c).arrAt 1 0 = V c main_v0 from arrAt1_1 c V 0,
    show (dat1 V c).arrAt 2 0 = V c main_v1 from A_eq1 V c 2]
  iintro ⟨⟨H0, H1⟩, Hr⟩
  ihave H := (pointsTo_share (PosShare.mem_left_op_right fullShare)).1 $$ H0
  icases H with ⟨Hl, Hrt⟩
  isplitr [Hr]
  · isplitl [Hl]; · iexact Hl
    isplitl [Hrt]; · iexact Hrt
    iexact H1
  iexact Hr

/-- EXIT: region 1's arrays at their final contents and the unscoped rest at the entry contents are every unscoped
    buffer at any valuation that has the output cell at its final contents and agrees with the entry off it. -/
theorem exit1 (c : Dev nD) (V : (c : Dev nD) → (b : Ref sig .tc) → Buf (Elt F) ((c : Thread nD τ).loc b))
    (V' : (b : Ref sig .tc) → Buf (Elt F) ((c : Thread nD τ).loc b))
    (hout : V' main_v1 = (dat1 V c).arrAt 2 cfg1.N) (hrest : ∀ b, b ≠ main_v1 → V' b = V c b) :
    iprop((dat1 V c).arrays ((dat1 V c).arrAt · cfg1.N) ∗ Pipeline.unscopedRest spec1 c (V c))
      ⊢ (unscopedBufs (Ix := Unit) (Name := ℕ) (U := UR sig nD τ) (Lvl := ℕ) c V' : sProp 𝕄) := by
  have hs : (unscopedBufs (Ix := Unit) (Name := ℕ) (U := UR sig nD τ) (Lvl := ℕ) c V' : sProp 𝕄)
      = iprop(Pipeline.arrBufs spec1 c V' ∗ Pipeline.unscopedRest spec1 c V') :=
    Pipeline.unscopedBufs_split₀ cfgs 1 winFacts₀1.arr_unscoped c V'
  rw [hs, arrBufs1_eq, arrays1_eq, arrAt1_0, arrAt1_1, hout, hrest main_v0 (by decide)]
  have hR : (Pipeline.unscopedRest (Ix := Unit) (Name := ℕ) (U := UR sig nD τ) (Lvl := ℕ) spec1 c V' : sProp 𝕄)
      = Pipeline.unscopedRest spec1 c (V c) := by
    unfold Pipeline.unscopedRest
    exact bigSep_congr fun b hb => by
      rw [hrest b (fun e => (Finset.mem_sdiff.mp hb).2 (Finset.mem_image.mpr ⟨2, Finset.mem_univ _, e ▸ rfl⟩))]
  rw [hR]
  iintro ⟨⟨Hl, Hrt, H1⟩, Hr⟩
  isplitr [Hr]
  · isplitr [H1]
    · iapply (pointsTo_share (PosShare.mem_left_op_right fullShare)).2
      isplitl [Hl]; · iexact Hl
      iexact Hrt
    iexact H1
  iexact Hr

set_option backward.isDefEq.respectTransparency.types false in
/-- Region 1 over the thread state: entered from every unscoped buffer at `W1`, left at `W2`.  The scratch cell
    enters the invariant at anything (the first point resets it) and leaves it at anything. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit : (unscopedBufs (Ix := Unit) (Name := ℕ) (U := UR sig nD τ) (Lvl := ℕ) c (E1 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (E1 m ρ c)) :=
      entry1 (F := F) c (E1 m ρ)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Phi1 (E1 m ρ) c 0 from rfl]; unfold Phi1 rest1
    have hsr := scopedRest1_eq (Ix := Unit) (Val := Elt F) (Name := ℕ) (U := UR sig nD τ) (Lvl := ℕ) c
    rw [show Pipeline.scopedRest (Ix := Unit) (Name := ℕ) (U := UR sig nD τ) (Lvl := ℕ) (Val := Elt F) (Pipeline.pin (pcfgs (F := F)) adm 1).spec c
      = Pipeline.scopedRest (Ix := Unit) (Name := ℕ) (U := UR sig nD τ) (Lvl := ℕ) (Val := Elt F) spec1 c from rfl, hsr]
    iintro ⟨Hp, -, H1, H2, H3, H4, ⟨%f, Hs⟩⟩
    isplitl [Hs]
    · iexists ((Memref.whole cc1_scratch0).view.read (Elt F) f)
      isplitr; · ipureintro; intro h; exact absurd rfl h
      unfold owns; iexists f; isplitr; · ipureintro; rfl
      rw [(Memref.isWhole_whole cc1_scratch0).set_eq_univ]; iexact Hs
    isplitr [Hp]
    · isplitl [H1]; · iexact H1
      isplitl [H2]; · iexact H2
      isplitl [H3]; · iexact H3
      iexact H4
    iexact Hp
  hout c := by
    rw [Pipeline.ownSems0_none, show (pdats m ρ 1 c).Φ (Fin.last _) = Phi1 (E1 m ρ) c (Fin.last _) from rfl]; unfold Phi1 rest1
    have hsr := scopedRest1_eq (Ix := Unit) (Val := Elt F) (Name := ℕ) (U := UR sig nD τ) (Lvl := ℕ) c
    rw [show Pipeline.scopedRest (Ix := Unit) (Name := ℕ) (U := UR sig nD τ) (Lvl := ℕ) (Val := Elt F) (Pipeline.pin (pcfgs (F := F)) adm 1).spec c
      = Pipeline.scopedRest (Ix := Unit) (Name := ℕ) (U := UR sig nD τ) (Lvl := ℕ) (Val := Elt F) spec1 c from rfl, hsr]
    iintro ⟨⟨%s, -, Hs⟩, ⟨H1, H2, H3, H4⟩, Hp⟩
    isplitl [Hp]; · iexact Hp
    isplitr; · iempintro
    unfold owns; icases Hs with ⟨%f, -, Hs⟩
    rw [(Memref.isWhole_whole cc1_scratch0).set_eq_univ]
    isplitl [H1]; · iexact H1
    isplitl [H2]; · iexact H2
    isplitl [H3]; · iexact H3
    isplitl [H4]; · iexact H4
    iexists f; iexact Hs
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (E1 m ρ c))
        ⊢ (unscopedBufs (Ix := Unit) (Name := ℕ) (U := UR sig nD τ) (Lvl := ℕ) c (E2 m ρ c) : sProp 𝕄) :=
      exit1 (F := F) c (E1 m ρ) (E2 m ρ c) (W2_out m ρ c) (fun b hb => W2_of_ne m ρ c b hb)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

/-! ## @main as segments, and the launch -/

theorem hostOps2_fresh' : (hostOps2 : List (HloOp τ sig (Elt F))).Forall fun op => op.fresh = ∅ := by
  simp only [List.Forall]; repeat' constructor

/-- @main's three segments in order: the two regions, then the host operations from region 1's exit contents. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh' (W2 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing
    faulting, and the final memory holds every unscoped buffer at the last boundary's contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## The argument array ends as launched -/

/-- No host operation writes the argument array, region 1 does not window it, and region 0 only reads it:
    the fold at its buffer walks back to the launch memory. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := (W1_arr m ρ c 0).trans (((dat0 (E0 m ρ) c).arrAt_in 0 rfl _).trans (A_eq0 (E0 m ρ) c 0))
    _ = m ((c : Thread nD τ).loc main_arg0) := rfl

/-- The frame claim's conclusion, read off the run. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W3_main_arg0 m ρ c)) (run_main m ρ)

end Cert.KernelIdeal.Hand

end
-- ==== Proof.Spec.lean ====
/-
  The mathematics both programs compute, stated once over the extended reals and over plain
  index types.  A row is divided by the larger of its Euclidean norm and a clamp constant;
  the quantity of interest is the sum of ALL entries of N Nᵀ for the row-normalised N, which
  may be summed whole (as the reference does) or tile by tile over a 16 × 16 grid of
  1024 × 1024 tiles (as the kernel does): addition on the extended reals is commutative and
  associative, so the two arrangements agree with no finiteness assumption.
-/
import Idealize.ShloMosaic.PureOps.Ideal
import Idealize.ShloMosaic.PureOps.Ideal.Laws
import Idealize.ShloMosaic.Lib.ValueIdx

noncomputable section

namespace Cert.Hand

open Idealize.ShloMosaic

/-- The rank-0 shape of a scalar result and the shape of the argument array. -/
abbrev S0 : Shape := ⟨0, ![]⟩
abbrev SX : Shape := ⟨2, ![16384, 128]⟩

/-- The clamp under the norm. -/
def eps : EReal := Ideal.ofBits .f32 0x2B8CBCCC#32

/-- Entry `k` of a row divided by the larger of the row's Euclidean norm and the clamp. -/
def nrmRow (row : Fin 128 → EReal) (k : Fin 128) : EReal :=
  Ideal.div (row k) (max (Ideal.sqrt (∑ k', row k' * row k')) eps)

/-- The rows of a 16384 × 128 array as a function of a natural row number (zero rows beyond the array). -/
def rowsOf (a : SX.Idx → EReal) (R : ℕ) (k : Fin 128) : EReal :=
  if h : R < 16384 then a (ValueIdx.ix2 (⟨R, h⟩ : Fin 16384) k) else 0

/-- The sum of every entry of N Nᵀ. -/
def gram (N : ℕ → Fin 128 → EReal) : EReal :=
  ∑ R ∈ Finset.range 16384, ∑ S ∈ Finset.range 16384, ∑ k : Fin 128, N R k * N S k

/-- The sum of the entries of tile `n` (row block `n / 16` against row block `n % 16`). -/
def tile (N : ℕ → Fin 128 → EReal) (n : ℕ) : EReal :=
  ∑ r ∈ Finset.range 1024, ∑ s ∈ Finset.range 1024, ∑ k : Fin 128,
    N (1024 * (n / 16) + r) k * N (1024 * (n % 16) + s) k

/-- Summing block by block over `a` consecutive blocks of length `b` is summing over the
whole range `a * b`: the index `R < a * b` is `b * i + r` with `i < a` and `r < b`. -/
private theorem sum_range_mul {M : Type*} [AddCommMonoid M] (a b : ℕ) (g : ℕ → M) :
    ∑ i ∈ Finset.range a, ∑ r ∈ Finset.range b, g (b * i + r)
      = ∑ R ∈ Finset.range (a * b), g R := by
  induction a with
  | zero => simp
  | succ a ih =>
    -- range ((a + 1) * b) is range (a * b) followed by the block a * b + r, r < b
    rw [Finset.sum_range_succ, ih, Nat.succ_mul, Finset.sum_range_add, Nat.mul_comm b a]

/-- A sum over `n < a * b` of a function of the quotient and remainder of `n` by `b` is the
double sum over the quotient `i < a` and the remainder `j < b`. -/
private theorem sum_range_divmod {M : Type*} [AddCommMonoid M] (a b : ℕ) (F : ℕ → ℕ → M) :
    ∑ n ∈ Finset.range (a * b), F (n / b) (n % b)
      = ∑ i ∈ Finset.range a, ∑ j ∈ Finset.range b, F i j := by
  rw [← sum_range_mul a b (fun n => F (n / b) (n % b))]
  refine Finset.sum_congr rfl (fun i _ => Finset.sum_congr rfl (fun j hj => ?_))
  have hj' : j < b := Finset.mem_range.mp hj
  have hb : 0 < b := by omega
  -- (b * i + j) / b = i and (b * i + j) % b = j for j < b
  show F ((b * i + j) / b) ((b * i + j) % b) = F i j
  rw [Nat.mul_add_div hb, Nat.mul_add_mod, Nat.div_eq_of_lt hj', Nat.mod_eq_of_lt hj',
    Nat.add_zero]

/-- The 256 tiles partition the index pairs: summing tile by tile is summing everything. -/
theorem sum_tiles (N : ℕ → Fin 128 → EReal) : ∑ n ∈ Finset.range 256, tile N n = gram N := by
  unfold tile gram
  have e256 : (256 : ℕ) = 16 * 16 := by norm_num
  have e16384 : (16384 : ℕ) = 16 * 1024 := by norm_num
  rw [e256, e16384]
  -- the tile number n = 16 i + j splits into the row block i and the column block j
  rw [sum_range_divmod 16 16 (fun i j => ∑ r ∈ Finset.range 1024, ∑ s ∈ Finset.range 1024,
    ∑ k : Fin 128, N (1024 * i + r) k * N (1024 * j + s) k)]
  -- the row number R = 1024 i + r
  rw [← sum_range_mul 16 1024 (fun R => ∑ S ∈ Finset.range (16 * 1024), ∑ k : Fin 128,
    N R k * N S k)]
  refine Finset.sum_congr rfl (fun i _ => ?_)
  -- bring the sum over r outside the sum over j
  rw [Finset.sum_comm]
  refine Finset.sum_congr rfl (fun r _ => ?_)
  -- the column number S = 1024 j + s
  exact sum_range_mul 16 1024 (fun S => ∑ k : Fin 128, N (1024 * i + r) k * N S k)

/-- The scalar both programs return from the sum: one minus the sum over 2²⁸. -/
def lossOf (s : EReal) : FVec Ideal S0 .f32 :=
  subf (constant (F := Ideal) S0 .f32 0x3F800000#32) (Host.divf (fun _ => s) (constant (F := Ideal) S0 .f32 0x4D800000#32))

end Cert.Hand

end
-- ==== Proof.Payload.lean ====
/-
  The kernels' arithmetic read at an index, over the extended reals.  The normalising kernel's
  stored value at row r, column k is that entry of the block's row r divided by the larger of
  the row's norm and the clamp.  The summing kernel's stored scalar is the scalar it read plus
  the sum, over the tile, of the inner products of row r of the first block with row s of the
  second; its reset value is zero.
-/
import proofs.«131188_j41266045780102_1_alg».proof.Proof.Gen.KernelIdeal.Skeleton
import proofs.«131188_j41266045780102_1_alg».proof.Proof.Spec
import Idealize.ShloMosaic.Lib.Pipeline.Value
import Idealize.ShloMosaic.Lib.ValueLayout

noncomputable section

namespace Cert.KernelIdeal.Hand

open Cert.Hand Cert.KernelIdeal Cert.KernelIdeal.Gen
open Idealize.ShloMosaic Idealize.ShloMosaic.ValueIdx

/-- A column `[a]` cast to `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A sum over the lanes of a matrix reads, at row `p`, the sum of that row's entries. -/
theorem laneSum_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction (F := Ideal) .add [1] ⟨1, ![a]⟩ v 0x00000000#32 h hφ hacc (ix1 p) = ∑ q : Fin b, v (ix2 p q) := by
  refine (Ideal.multiReduction_add_single v 0x00000000#32 h hφ hacc (ix1 p)).trans ?_
  refine Finset.sum_congr rfl fun q _ => ?_
  exact congrArg v (funext fun c => Fin.ext (by match c with | ⟨0, _⟩ => rfl | ⟨1, _⟩ => rfl))

theorem k0_pay1_apply (blk : Vec Ideal S2048x128 .f32) (r : Fin 2048) (k : Fin 128) :
    k0_pay1 (F := Ideal) blk (ix2 r k) = nrmRow (fun k' => blk (ix2 r k')) k := by
  unfold k0_pay1 nrmRow
  show Ideal.div (blk (ix2 r k)) (broadcastTo S2048x128 _ broadcasts_S2048x1_S2048x128 (ix2 r k)) = _
  rw [broadcastTo_a1_ab_apply]
  show Ideal.div (blk (ix2 r k)) (max (Ideal.sqrt (shapeCast S2048x1 _ shapeCasts_S2048_S2048x1 (ix2 r (0 : Fin 1)))) (Ideal.ofBits .f32 0x2B8CBCCC#32)) = _
  rw [shapeCast_a_a1_apply]
  exact congrArg (fun x => Ideal.div (blk (ix2 r k)) (max (Ideal.sqrt x) (Ideal.ofBits .f32 0x2B8CBCCC#32)))
    (laneSum_apply (mulf blk blk) reduces_S2048x128_S2048 (.inl rfl) rfl r)

/-- A sum over the rows of a matrix reads, at column `q`, the sum of that column's entries. -/
theorem rowSum_apply {a b : ℕ} (v : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction (F := Ideal) .add [0] ⟨1, ![b]⟩ v 0x00000000#32 h hφ hacc (ix1 q) = ∑ p : Fin a, v (ix2 p q) := by
  refine (Ideal.multiReduction_add_single v 0x00000000#32 h hφ hacc (ix1 q)).trans ?_
  refine Finset.sum_congr rfl fun p _ => ?_
  exact congrArg v (funext fun c => Fin.ext (by match c with | ⟨0, _⟩ => rfl | ⟨1, _⟩ => rfl))

theorem k1_pay1_apply (j : S1x1.Idx) : k1_pay1 (F := Ideal) j = 0 := by
  unfold k1_pay1
  rw [shapeCast_self]
  exact Ideal.ofBits_zero_f32

/-! ### The matrix product of the summing kernel, read at an index -/

theorem lhs_mm_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhs_mm_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
theorem rhs_mm_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
theorem rhs_mm_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The product into a zero accumulator reads, at `(p, q)`, the inner product of row `p` of the left
    operand with column `q` of the right. -/
theorem mm_apply (x : FVec Ideal S1024x128 .bf16) (y : FVec Ideal S128x1024 .bf16) (p q : Fin 1024) :
    matmul dot_S1024x128_S128x1024_S1024x1024_1_0_0_1_n_n none x y (constant (F := Ideal) S1024x1024 .f32 0x00000000#32) (ix2 p q)
      = ∑ k : Fin 128, x (ix2 p k) * y (ix2 k q) := by
  show FloatOps.matmul dot_S1024x128_S128x1024_S1024x1024_1_0_0_1_n_n none x y (constant (F := Ideal) S1024x1024 .f32 0x00000000#32) (ix2 p q) = _
  rw [Ideal.matmul_constant_zero_apply, ← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 p q) ((ValueIdx.contrEquiv1 dot_S1024x128_S128x1024_S1024x1024_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S1024x128_S128x1024_S1024x1024_1_0_0_1_n_n.rhsIdx (ix2 p q) ((ValueIdx.contrEquiv1 dot_S1024x128_S128x1024_S1024x1024_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

theorem k1_pay2_apply (a b : Vec Ideal S1024x128 .bf16) (s : Vec Ideal S1x1 .f32) (j : S1x1.Idx) :
    k1_pay2 (F := Ideal) a b s j
      = s j + ∑ r : Fin 1024, ∑ s' : Fin 1024, ∑ k : Fin 128, a (ix2 r k) * b (ix2 s' k) := by
  obtain ⟨u, w, rfl⟩ : ∃ (u : Fin 1) (w : Fin 1), j = ix2 u w := ⟨j 0, j 1, eq_ix2 j⟩
  unfold k1_pay2
  rw [shapeCast_self, shapeCast_self, shapeCast_self]
  show s (ix2 u w) + shapeCast S1x1 _ shapeCasts_S1_S1x1 (ix2 u w) = _
  rw [shapeCast_a_a1_apply]
  refine congrArg (s (ix2 u w) + ·) ?_
  refine (rowSum_apply _ reduces_S1024x1_S1 (.inl rfl) rfl u).trans ?_
  refine Finset.sum_congr rfl fun r _ => ?_
  rw [shapeCast_a_a1_apply]
  refine (laneSum_apply _ reduces_S1024x1024_S1024 (.inl rfl) rfl r).trans ?_
  refine Finset.sum_congr rfl fun s' _ => ?_
  rw [mm_apply]
  refine Finset.sum_congr rfl fun k _ => ?_
  rw [transpose_ix2_apply]

end Cert.KernelIdeal.Hand

end
-- ==== Proof.Finals.lean ====
/-
  What the two regions leave in their output arrays, read at an index over the extended reals.
  Region 0: the eight flushed blocks tile the output array, and block p holds the normalised
  rows of block p of the argument, so row R of the output is row R of the argument normalised.
  Region 1: only the last point writes back, and what it writes is the running sum after all
  256 points, which is the sum of the 256 tile sums of the array the region read.
-/
import proofs.«131188_j41266045780102_1_alg».proof.Proof.Region0
import proofs.«131188_j41266045780102_1_alg».proof.Proof.Region1Data
import proofs.«131188_j41266045780102_1_alg».proof.Proof.Payload
import proofs.«131188_j41266045780102_1_alg».proof.Proof.Spec
import Idealize.ShloMosaic.Lib.Pipeline.Value

set_option maxRecDepth 16384

noncomputable section

namespace Cert.KernelIdeal.Hand

open Cert.Hand Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Region 0's index maps over its 8 points: point t reads and writes row block t, column block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- A row of an array below its 16384 rows, read through `rowsOf`. -/
theorem rowsOf_lt (a : SX.Idx → EReal) (R : ℕ) (h : R < 16384) (k : Fin 128) :
    rowsOf a R k = a (ix2 (⟨R, h⟩ : Fin 16384) k) := dif_pos h

/-- The block of the argument that point t reads, as a 2048 × 128 array of extended reals. -/
abbrev xblk (c : Dev nD) (t : Fin cfg0.N) : Vec Ideal S2048x128 .f32 := iblk0 (F := Ideal) V c 0 t

/-- The input block at point t is rows 2048 t + r, r < 2048, of the argument. -/
theorem iblk0_apply (c : Dev nD) (t : Fin cfg0.N) (r : Fin 2048) (k : Fin 128) :
    xblk V c t (ix2 r k) = rowsOf (V c main_arg0) (2048 * t.val + r.val) k := by
  obtain ⟨e0, e1, -, -⟩ := idx_facts0 t
  have hN : cfg0.N = 8 := N_0
  have hR : 2048 * t.val + r.val < 16384 := by have := t.isLt; have := r.isLt; omega
  rw [rowsOf_lt _ _ hR]
  unfold xblk iblk0
  rw [View.read_apply]
  show V c main_arg0 _ = V c main_arg0 _
  congr 1
  funext a
  apply Fin.ext
  match a with
  | ⟨0, _⟩ => show win0_0.index t (0 : Fin 2) * 2048 + 1 * r.val = 2048 * t.val + r.val; rw [e0]; omega
  | ⟨1, _⟩ => show win0_0.index t (1 : Fin 2) * 128 + 1 * k.val = k.val; rw [e1]; omega

/-- The array region 0 leaves: every row of the argument normalised. -/
def nrmArr (c : Dev nD) : Vec Ideal S16384x128 .bf16 :=
  fun i => nrmRow (rowsOf (V c main_arg0) (i 0).val) ⟨(i 1).val, (i 1).isLt⟩

/-- The zero offsets of a whole-buffer rectangle, as a constant function. -/
theorem hz0 : (![0, 0] : Fin 2 → Nat) = fun _ => 0 := funext fun a => by fin_cases a <;> rfl

/-- What point t writes back is block t of the normalised array. -/
theorem flushed0_eq (c : Dev nD) (t : Fin cfg0.N) :
    (dat0 (F := Ideal) V c).flushed 1 t = ((cfg0.win 1).blk t).view.read (Elt Ideal) (nrmArr V c) := by
  obtain ⟨-, -, e0, e1⟩ := idx_facts0 t
  show (cfg0.win 1).cut (grid0.coords t) ((dat0 (F := Ideal) V c).after 1 t) = _
  rw [after0_1]
  unfold out0_1
  rw [View.canon_unit_zero hz0]
  simp only [View.ld_unit_zero (S := S2048x128) hz0]
  funext y
  obtain ⟨p, q, rfl⟩ : ∃ (p : Fin 2048) (q : Fin 128), y = ix2 p q := ⟨y 0, y 1, eq_ix2 y⟩
  show k0_pay1 (F := Ideal) (xblk V c t) (ix2 p q) = nrmArr V c (((cfg0.win 1).blk t).view.emb (ix2 p q))
  refine (k0_pay1_apply (xblk V c t) p q).trans ?_
  have h0 : ((((cfg0.win 1).blk t).view.emb (ix2 p q)) 0).val = 2048 * t.val + p.val := by
    show win0_1.index t (0 : Fin 2) * 2048 + 1 * p.val = _; rw [e0]; omega
  have h1 : ((((cfg0.win 1).blk t).view.emb (ix2 p q)) 1).val = q.val := by
    show win0_1.index t (1 : Fin 2) * 128 + 1 * q.val = _; rw [e1]; omega
  unfold nrmArr
  refine congrArg₂ nrmRow ?_ (Fin.ext h1.symm)
  funext k'
  rw [h0]
  exact iblk0_apply V c t p k'

/-- The eight blocks tile the output array, so it ends as the normalised array. -/
theorem final0_arr (c : Dev nD) : (dat0 (F := Ideal) V c).arrAt 1 cfg0.N = nrmArr V c := by
  have hN : cfg0.N = 8 := N_0
  refine (dat0 (F := Ideal) V c).arrAt_eq_of_cover 1 (nrmArr V c) (fun t _ => flushed0_eq V c t) fun i => ?_
  have hi0 : (i 0).val < 16384 := (i 0).isLt
  have hi1 : (i 1).val < 128 := (i 1).isLt
  have ht : (i 0).val / 2048 < cfg0.N := by omega
  obtain ⟨-, -, e0, e1⟩ := idx_facts0 ⟨(i 0).val / 2048, ht⟩
  refine ⟨⟨(i 0).val / 2048, ht⟩, flush0_1 _, ?_⟩
  show i ∈ ((View.whole main_v0).slice (win0_1.rect ⟨(i 0).val / 2048, ht⟩)).set
  rw [View.set_slice_whole, Rect.mem_set_unit]
  intro a
  match a with
  | ⟨0, _⟩ =>
    show win0_1.index ⟨(i 0).val / 2048, ht⟩ (0 : Fin 2) * 2048 ≤ (i 0).val
      ∧ (i 0).val < win0_1.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_1.index ⟨(i 0).val / 2048, ht⟩ (1 : Fin 2) * 128 ≤ (i 1).val
      ∧ (i 1).val < win0_1.index ⟨(i 0).val / 2048, ht⟩ (1 : Fin 2) * 128 + 128
    rw [e1]; omega

/-- Region 0's output array after the run: row R is row R of the argument array, normalised. -/
theorem final0_rows (c : Dev nD) (R : ℕ) (hR : R < 16384) (k : Fin 128) :
    rowsOf ((dat0 (F := Ideal) V c).arrAt 1 cfg0.N) R k = nrmRow (rowsOf (V c main_arg0) R) k := by
  rw [final0_arr]
  exact rowsOf_lt _ R hR k

/-- Region 0 leaves its input array as it found it. -/
theorem final0_in (c : Dev nD) : (dat0 (F := Ideal) V c).arrAt 0 cfg0.N = V c main_arg0 :=
  ((dat0 (F := Ideal) V c).arrAt_in 0 rfl _).trans (A_eq0 V c 0)

/-- The one-cell shape has one index. -/
theorem idx1x1_eq (i j : S1x1.Idx) : i = j := by
  funext a
  apply Fin.ext
  match a with
  | ⟨0, _⟩ => have h1 : (i 0).val < 1 := (i 0).isLt; have h2 : (j 0).val < 1 := (j 0).isLt; show (i 0).val = (j 0).val; omega
  | ⟨1, _⟩ => have h1 : (i 1).val < 1 := (i 1).isLt; have h2 : (j 1).val < 1 := (j 1).isLt; show (i 1).val = (j 1).val; omega

/-- Region 1's output array after the run: its one cell holds the running sum after all 256 points. -/
theorem final1_out (c : Dev nD) (j : S1x1.Idx) :
    (dat1 (F := Ideal) V c).arrAt 2 cfg1.N j = accUpTo (F := Ideal) V c 256 j := by
  have hN : cfg1.N = 256 := N_1
  -- the only point that writes back is the last, and it writes the running sum after all points
  have hG : ∀ t, (cfg1.win 2).flush t = true →
      (dat1 (F := Ideal) V c).flushed 2 t = ((cfg1.win 2).blk t).view.read (Elt Ideal) (accUpTo (F := Ideal) V c 256) := by
    intro t hf
    have h255 : t.val = 255 := by have := (flush1_2 t).mp hf; have := t.isLt; omega
    show (cfg1.win 2).cut (grid1.coords t) ((dat1 (F := Ideal) V c).after 2 t) = _
    rw [after1_2, h255]
    funext y
    rw [View.read_apply]
    exact congrArg (accUpTo (F := Ideal) V c 256) (idx1x1_eq _ _)
  have hlast : (255 : ℕ) < cfg1.N := by omega
  refine (dat1 (F := Ideal) V c).arrAt_apply_of_mem 2 (accUpTo (F := Ideal) V c 256) hG cfg1.N ⟨255, hlast⟩ j hlast
    ((flush1_2 ⟨255, hlast⟩).mpr rfl) ?_
  -- the last point's block is the whole one-cell array
  show j ∈ ((View.whole main_v1).slice (win1_2.rect ⟨255, hlast⟩)).set
  rw [View.set_slice_whole, Rect.mem_set_unit]
  intro a
  match a with
  | ⟨0, _⟩ =>
    have h1 : (j 0).val < 1 := (j 0).isLt
    show 0 * 1 ≤ (j 0).val ∧ (j 0).val < 0 * 1 + 1
    omega
  | ⟨1, _⟩ =>
    have h1 : (j 1).val < 1 := (j 1).isLt
    show 0 * 1 ≤ (j 1).val ∧ (j 1).val < 0 * 1 + 1
    omega

/-- Region 1's index maps over its 256 points: point t reads row block t / 16 through its first
    window and row block t % 16 through its second, both at column block 0. -/
theorem idx_facts1 : ∀ t : Fin cfg1.N, win1_0.index t (0 : Fin 2) = t.val / 16 ∧ win1_0.index t (1 : Fin 2) = 0
    ∧ win1_1.index t (0 : Fin 2) = t.val % 16 ∧ win1_1.index t (1 : Fin 2) = 0 :=
  (by decide +kernel : ∀ t : Fin grid1.N, win1_0.index t (0 : Fin 2) = t.val / 16 ∧ win1_0.index t (1 : Fin 2) = 0
    ∧ win1_1.index t (0 : Fin 2) = t.val % 16 ∧ win1_1.index t (1 : Fin 2) = 0)

/-- The first window's block at point t is rows 1024 (t / 16) + r, r < 1024, of the array region 1 reads. -/
theorem iblk1_0_apply (c : Dev nD) (t : Fin cfg1.N) (r : Fin 1024) (k : Fin 128) :
    (iblk1 (F := Ideal) V c 0 t : Vec Ideal S1024x128 .bf16) (ix2 r k)
      = rowsOf (V c main_v0) (1024 * (t.val / 16) + r.val) k := by
  obtain ⟨e0, e1, -, -⟩ := idx_facts1 t
  have hN : cfg1.N = 256 := N_1
  have hR : 1024 * (t.val / 16) + r.val < 16384 := by have := t.isLt; have := r.isLt; omega
  unfold rowsOf
  rw [dif_pos hR]
  unfold iblk1
  rw [View.read_apply]
  show V c main_v0 _ = V c main_v0 _
  congr 1
  funext a
  apply Fin.ext
  match a with
  | ⟨0, _⟩ => show win1_0.index t (0 : Fin 2) * 1024 + 1 * r.val = 1024 * (t.val / 16) + r.val; rw [e0]; omega
  | ⟨1, _⟩ => show win1_0.index t (1 : Fin 2) * 128 + 1 * k.val = k.val; rw [e1]; omega

/-- The second window's block at point t is rows 1024 (t % 16) + s, s < 1024, of the same array. -/
theorem iblk1_1_apply (c : Dev nD) (t : Fin cfg1.N) (s : Fin 1024) (k : Fin 128) :
    (iblk1 (F := Ideal) V c 1 t : Vec Ideal S1024x128 .bf16) (ix2 s k)
      = rowsOf (V c main_v0) (1024 * (t.val % 16) + s.val) k := by
  obtain ⟨-, -, e0, e1⟩ := idx_facts1 t
  have hR : 1024 * (t.val % 16) + s.val < 16384 := by have := s.isLt; omega
  unfold rowsOf
  rw [dif_pos hR]
  unfold iblk1
  rw [View.read_apply]
  show V c main_v0 _ = V c main_v0 _
  congr 1
  funext a
  apply Fin.ext
  match a with
  | ⟨0, _⟩ => show win1_1.index t (0 : Fin 2) * 1024 + 1 * s.val = 1024 * (t.val % 16) + s.val; rw [e0]; omega
  | ⟨1, _⟩ => show win1_1.index t (1 : Fin 2) * 128 + 1 * k.val = k.val; rw [e1]; omega

/-- The two blocks point t reads, as 1024 × 128 arrays of extended reals. -/
abbrev lblk (c : Dev nD) (t : Fin cfg1.N) : Vec Ideal S1024x128 .bf16 := iblk1 (F := Ideal) V c 0 t
abbrev rblk (c : Dev nD) (t : Fin cfg1.N) : Vec Ideal S1024x128 .bf16 := iblk1 (F := Ideal) V c 1 t

/-- What point t adds to the running sum is tile t of the array region 1 reads. -/
theorem tile_at (c : Dev nD) (t : Fin cfg1.N) :
    (∑ r : Fin 1024, ∑ s : Fin 1024, ∑ k : Fin 128, lblk V c t (ix2 r k) * rblk V c t (ix2 s k))
      = tile (rowsOf (V c main_v0)) t.val := by
  unfold tile
  rw [Finset.sum_range]
  refine Finset.sum_congr rfl fun r _ => ?_
  rw [Finset.sum_range]
  refine Finset.sum_congr rfl fun s _ => ?_
  refine Finset.sum_congr rfl fun k _ => ?_
  exact congrArg₂ (· * ·) (iblk1_0_apply V c t r k) (iblk1_1_apply V c t s k)

/-- The running sum after the first n points is the sum of the first n tile sums. -/
theorem acc_upto (c : Dev nD) (j : S1x1.Idx) : ∀ n : ℕ, n ≤ 256 →
    accUpTo (F := Ideal) V c n j = ∑ i ∈ Finset.range n, tile (rowsOf (V c main_v0)) i
  | 0, _ => by
    rw [Finset.sum_range_zero]
    exact k1_pay1_apply j
  | n + 1, h => by
    have hn : n < cfg1.N := by rw [show cfg1.N = 256 from N_1]; omega
    rw [Finset.sum_range_succ, ← acc_upto c j n (by omega)]
    rw [accUpTo, dif_pos hn]
    refine (k1_pay2_apply (lblk V c ⟨n, hn⟩) (rblk V c ⟨n, hn⟩) (accUpTo (F := Ideal) V c n) j).trans ?_
    exact congrArg (accUpTo (F := Ideal) V c n j + ·) (tile_at V c ⟨n, hn⟩)

/-- The running sum after all 256 points is the sum of the 256 tile sums of the array read. -/
theorem acc_total (c : Dev nD) (j : S1x1.Idx) :
    accUpTo (F := Ideal) V c 256 j = ∑ n ∈ Finset.range 256, tile (rowsOf (V c main_v0)) n :=
  acc_upto V c j 256 (Nat.le_refl _)

end Cert.KernelIdeal.Hand

end
-- ==== Proof.KernelValue.lean ====
/-
  The kernel program's result over the extended reals: the host operations after region 1
  reshape its one-cell output to a scalar, divide by 2²⁸ and subtract from one; the cell holds
  the sum of the 256 tile sums of region 0's output, which is the sum of all entries of N Nᵀ
  for N the row-normalised argument.
-/
import proofs.«131188_j41266045780102_1_alg».proof.Proof.Launch
import proofs.«131188_j41266045780102_1_alg».proof.Proof.Finals
import proofs.«131188_j41266045780102_1_alg».proof.Proof.Spec
import Idealize.ShloMosaic.Lib.StableHlo.Run

set_option maxRecDepth 16384

noncomputable section

namespace Cert.KernelIdeal.Hand

open Cert.Hand Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- Region 1's output cell after the run holds the sum of all entries of N Nᵀ, N the row-normalised argument:
    the cell is the running sum after all 256 points, the sum of the 256 tile sums of region 0's output array,
    which tile the index pairs; and row R of region 0's output is row R of the argument, normalised. -/
theorem cell_eq (c : Dev nD) (j : S1x1.Idx) :
    (W2 (F := Ideal) m ρ c (Proc.devRef .tc main_v1) : S1x1.Idx → EReal) j
      = gram fun R k => nrmRow (rowsOf (m ((c : Thread nD τ).loc main_arg0)) R) k := by
  have e : ∀ R, R < 16384 → ∀ k, rowsOf (E1 m ρ c main_v0) R k = nrmRow (rowsOf (m ((c : Thread nD τ).loc main_arg0)) R) k := fun R hR k => by
    rw [show E1 m ρ c main_v0 = (dat0 (E0 m ρ) c).arrAt 1 cfg0.N from W1_arr m ρ c 1]
    exact final0_rows (E0 m ρ) c R hR k
  have key : gram (rowsOf (E1 m ρ c main_v0))
      = gram fun R k => nrmRow (rowsOf (m ((c : Thread nD τ).loc main_arg0)) R) k := by
    unfold gram
    refine Finset.sum_congr rfl fun R hR => Finset.sum_congr rfl fun S hS => Finset.sum_congr rfl fun k _ => ?_
    rw [e R (Finset.mem_range.mp hR) k, e S (Finset.mem_range.mp hS) k]
  rw [W2_out, final1_out (E1 m ρ) c j, acc_total (E1 m ρ) c j, sum_tiles]
  exact key

/-- The kernel program's result: one minus that sum over 2²⁸. -/
theorem W3_main_v4 (c : Dev nD) :
    W3 (F := Ideal) m ρ c (Proc.devRef .tc main_v4)
      = lossOf (gram fun R k => nrmRow (rowsOf (m ((c : Thread nD τ).loc main_arg0)) R) k) := by
  show StableHlo.after hostOps2 (W2 m ρ c) (Proc.devRef .tc main_v4) = _
  after_results
  unfold lossOf
  refine congrArg (fun s => subf (constant (F := Ideal) S_ .f32 0x3F800000#32) (Host.divf s (constant (F := Ideal) S_ .f32 0x4D800000#32))) ?_
  funext i
  show shapeCast S_ (W2 m ρ c (Proc.devRef .tc main_v1)) shapeCasts_S1x1_S_ i = _
  have hk : (S1x1.rowMajor (ix2 (0 : Fin 1) (0 : Fin 1))).val = (S_.rowMajor i).val := by
    have h1 := (S1x1.rowMajor (ix2 (0 : Fin 1) (0 : Fin 1))).isLt
    have h2 := (S_.rowMajor i).isLt
    have e1 : S1x1.numel = 1 := by decide
    have e2 : S_.numel = 1 := by decide
    omega
  refine (shapeCast_apply (s := S1x1) (t := S_) _ shapeCasts_S1x1_S_ i (ix2 (0 : Fin 1) (0 : Fin 1)) hk).trans ?_
  exact cell_eq m ρ c _

/-- The value claim's conclusion for the kernel program, read off the run. -/
theorem value_main : θ_run defs (onTc (τ := τ) (main (F := Ideal))) ⟨m, fun _ => 0, ρ⟩ (fun r => ∀ c : Dev nD,
      r.2.mem ((c.tc : Thread nD τ).loc main_v4) = lossOf (gram fun R k => nrmRow (rowsOf (m ((c : Thread nD τ).loc main_arg0)) R) k)
      ∧ r.2.mem ((c.tc : Thread nD τ).loc main_arg0) = m ((c.tc : Thread nD τ).loc main_arg0)) :=
  (θ_run defs _ _).mono (fun r h c => ⟨(h c _ (mem_uc main_v4 (by decide))).trans (W3_main_v4 m ρ c),
      (h c _ (mem_uc main_arg0 (by decide))).trans (W3_main_arg0 m ρ c)⟩) (run_main m ρ)

end Cert.KernelIdeal.Hand

end
-- ==== Proof.RefValue.lean ====
/-
  The reference program's result is the loss of the whole sum: its stages read one at a time
  (squares, row sums, square root, clamp, quotient, transpose, product, total sum, division,
  subtraction) give, at the single index of the scalar result, one minus the sum of all
  entries of N Nᵀ over 2²⁸, N the row-normalised argument.
-/
import proofs.«131188_j41266045780102_1_alg».proof.Proof.Gen.ReferenceIdeal.Run
import proofs.«131188_j41266045780102_1_alg».proof.Proof.Gen.ReferenceIdeal.Read
import proofs.«131188_j41266045780102_1_alg».proof.Proof.Spec

noncomputable section

namespace Cert.Hand.Ref

open Cert.Hand Cert.ReferenceIdeal Cert.ReferenceIdeal.Gen Cert.ReferenceIdeal.Read
open Idealize.ShloMosaic

/-- Within the array, the row numbered by a natural number below 16384 is the array's row. -/
theorem rowsOf_fin (x : SX.Idx → EReal) (p : Fin 16384) (k : Fin 128) :
    rowsOf x p.val k = x (ValueIdx.ix2 p k) := by
  unfold rowsOf
  rw [dif_pos p.isLt]

/-- The quotient stage at entry (p, q) is entry q of row p divided by the larger of the row's
    Euclidean norm and the clamp. -/
theorem nrm_at (x : (⟨S16384x128, .f32⟩ : BufTy).Contents (Elt Ideal)) (p : Fin 16384) (q : Fin 128) :
    val_main_v4 (F := Ideal) x (ValueIdx.ix2 p q) = nrmRow (rowsOf x p.val) q := by
  have e1 : ∀ k : Fin 128,
      idx_main_call0_v1 (idx_main_call0_v2 (idx_main_v3 (ValueIdx.ix2 p q))) k = ValueIdx.ix2 p k :=
    fun k => funext fun a => Fin.ext (by match a with | ⟨0, _⟩ => rfl | ⟨1, _⟩ => rfl)
  rw [val_main_v4_apply, val_main_v3_apply, val_main_v2_apply, val_main_v0_apply,
    val_main_call0_v2_apply, val_main_call0_v1_apply, val_main_v1_apply, val_main_cst_apply,
    val_main_call0_cst_apply]
  simp only [e1, val_main_call0_v0_apply, Ideal.mulf_def, Ideal.hostDivf_def,
    Ideal.hostUnary_sqrt_def, Ideal.maximumf_def, Ideal.ofBits_def, Ideal.ofBits_zero_f32, zero_add]
  unfold nrmRow eps
  simp only [rowsOf_fin]

/-- The product stage at entry (p, s) is the inner product of the normalised rows p and s. -/
theorem gram_at (x : (⟨S16384x128, .f32⟩ : BufTy).Contents (Elt Ideal)) (p s : Fin 16384) :
    val_main_v6 (F := Ideal) x (ValueIdx.ix2 p s)
      = ∑ k : Fin 128, nrmRow (rowsOf x p.val) k * nrmRow (rowsOf x s.val) k := by
  rw [val_main_v6_apply]
  refine Finset.sum_congr rfl fun k _ => ?_
  have el : lidx_main_v6 (ValueIdx.ix2 p s) k = ValueIdx.ix2 p k :=
    funext fun a => Fin.ext (by match a with | ⟨0, _⟩ => rfl | ⟨1, _⟩ => rfl)
  have er : idx_main_v5 (ridx_main_v6 (ValueIdx.ix2 p s) k) = ValueIdx.ix2 s k :=
    funext fun a => Fin.ext (by match a with | ⟨0, _⟩ => rfl | ⟨1, _⟩ => rfl)
  rw [val_main_v5_apply, el, er, nrm_at, nrm_at]

/-- The total-sum stage is the sum of every entry of N Nᵀ: the zero initial value drops, the sum
    over index pairs is the double sum over the coordinates, and a sum over the numbers below
    16384 is the sum over the row numbers. -/
theorem total (x : (⟨S16384x128, .f32⟩ : BufTy).Contents (Elt Ideal)) :
    val_main_v7 (F := Ideal) x = fun _ => gram fun R k => nrmRow (rowsOf x R) k := by
  funext i
  rw [val_main_v7_apply, val_main_cst_0_apply, Ideal.ofBits_def, Ideal.ofBits_zero_f32, zero_add,
    ValueIdx.sum_idx2]
  unfold gram
  rw [Finset.sum_range]
  refine Finset.sum_congr rfl fun p _ => ?_
  rw [Finset.sum_range]
  exact Finset.sum_congr rfl fun s _ => gram_at x p s

/-- The reference's result stage is the loss of the Gram sum of the row-normalised argument. -/
theorem ref_value (x : (⟨S16384x128, .f32⟩ : BufTy).Contents (Elt Ideal)) :
    val_main_v9 (F := Ideal) x = lossOf (gram fun R k => nrmRow (rowsOf x R) k) := by
  unfold val_main_v9 val_main_v8
  rw [total]
  rfl

end Cert.Hand.Ref

end
-- ==== Proof.lean ====
/-
  The certificate's five claims, assembled.
  Both kernel programs (the word-level one and its idealization) run as: a region that divides every
  row of the argument by the larger of its Euclidean norm and a clamp; a region that sums every entry
  of N Nᵀ, N that normalised array, tile by tile over a 16 × 16 grid into a one-cell scratch; and host
  operations that return one minus that sum over 2²⁸.  Their frames are read off ONE run theorem,
  proved once for any float instance, whose conclusion names every buffer's final contents.
  Over the extended reals the kernel's sum of 256 tile sums is the reference's sum over all index
  pairs, because the tiles partition the pairs and addition is commutative and associative; every
  other operation (squares, row sums, square root, clamp, quotient, the final division and
  subtraction) is the same operation on the same literals on both sides.  No finiteness of the
  inputs is used.  The idealization rewrote nothing, so the preservation claim is trivial.
-/
import proofs.«131188_j41266045780102_1_alg».proof.Defs
import proofs.«131188_j41266045780102_1_alg».proof.Proof.Gen.Kernel
import proofs.«131188_j41266045780102_1_alg».proof.Proof.Gen.KernelIdeal
import proofs.«131188_j41266045780102_1_alg».proof.Proof.Gen.ReferenceIdeal
import proofs.«131188_j41266045780102_1_alg».proof.Proof.Gen.Pre_finite_inputs
import proofs.«131188_j41266045780102_1_alg».proof.Proof.Gen.ReferenceIdeal.Run
import proofs.«131188_j41266045780102_1_alg».proof.Proof.Gen.ReferenceIdeal.Read
import proofs.«131188_j41266045780102_1_alg».proof.Proof.BitsLaunch
import proofs.«131188_j41266045780102_1_alg».proof.Proof.Launch
import proofs.«131188_j41266045780102_1_alg».proof.Proof.KernelValue
import proofs.«131188_j41266045780102_1_alg».proof.Proof.RefValue

noncomputable section

namespace Cert.Proof

open Idealize.ShloMosaic Idealize.SL.Sem

/-- The word-level kernel program runs and leaves its argument array as launched. -/
theorem frame_k : Cert.frame_Kernel := fun m ρ _ => Cert.Kernel.Hand.frame_main (F := Bits) m ρ

/-- So does its idealization. -/
theorem frame_ki : Cert.frame_KernelIdeal := fun m ρ _ => Cert.KernelIdeal.Hand.frame_main (F := Ideal) m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end at one minus the sum of all entries of N Nᵀ over 2²⁸,
    N the row-normalised argument, from memories that agree on the argument. -/
theorem algebraic : Cert.algebraic_KernelIdeal_ReferenceIdeal := by
  intro m ρ m' ρ' _ hagree
  refine ⟨_, Cert.KernelIdeal.Hand.value_main m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.Hand.Ref.ref_value, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
